-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x2048 : Shape := ⟨2, ![16384, 2048]⟩
abbrev S16384 : Shape := ⟨1, ![16384]⟩
abbrev S751x2048 : Shape := ⟨2, ![751, 2048]⟩
abbrev S_ : Shape := ⟨0, ![]⟩

class Facts : Prop where
  bcast_S_S16384x2048 : S_.BroadcastsInDim S16384x2048 (![] : Fin 0 → Fin S16384x2048.rank)
  reducesTo_S16384x2048_S_d0_1 : S16384x2048.ReducesTo [0, 1] S_
  h_S_ : 0 < S_.numel
  bcast_S_S751x2048 : S_.BroadcastsInDim S751x2048 (![] : Fin 0 → Fin S751x2048.rank)
  reducesTo_S751x2048_S_d0_1 : S751x2048.ReducesTo [0, 1] S_
  bcast_S_S16384 : S_.BroadcastsInDim S16384 (![] : Fin 0 → Fin S16384.rank)
  reducesTo_S16384_S_d0 : S16384.ReducesTo [0] S_

variable [Facts]

def fn {F : FTy → Type} [FloatOps F] (main_arg0 : FVec F S16384x2048 .f32) (main_arg1 : IVec S16384 32) (main_arg2 : FVec F S751x2048 .f32) : IVec S_ 1 :=
  let main_v0 : FVec F S16384x2048 .f32 := Host.absf main_arg0
  let main_cst : FVec F S_ .f32 := constant S_ .f32 0x7F800000#32
  let main_v1 : FVec F S16384x2048 .f32 := broadcastInDim S16384x2048 ![] bcast_S_S16384x2048 main_cst
  let main_v2 : IVec S16384x2048 1 := cmpf .olt main_v0 main_v1
  let main_c : IVec S_ 1 := constantI S_ 1 1#1
  let main_v3 : IVec S_ 1 := (fun x v => Host.reduce IntOp.andi x v reducesTo_S16384x2048_S_d0_1 h_S_) main_v2 main_c
  let main_v4 : FVec F S751x2048 .f32 := Host.absf main_arg2
  let main_cst_0 : FVec F S_ .f32 := constant S_ .f32 0x7F800000#32
  let main_v5 : FVec F S751x2048 .f32 := broadcastInDim S751x2048 ![] bcast_S_S751x2048 main_cst_0
  let main_v6 : IVec S751x2048 1 := cmpf .olt main_v4 main_v5
  let main_c_1 : IVec S_ 1 := constantI S_ 1 1#1
  let main_v7 : IVec S_ 1 := (fun x v => Host.reduce IntOp.andi x v reducesTo_S751x2048_S_d0_1 h_S_) main_v6 main_c_1
  let main_v8 : IVec S_ 1 := andi main_v3 main_v7
  let main_c_2 : IVec S_ 32 := constantI S_ 32 0#32
  let main_v9 : IVec S16384 32 := broadcastInDim S16384 ![] bcast_S_S16384 main_c_2
  let main_v10 : IVec S16384 1 := cmpi .sge main_arg1 main_v9
  let main_c_3 : IVec S_ 32 := constantI S_ 32 751#32
  let main_v11 : IVec S16384 32 := broadcastInDim S16384 ![] bcast_S_S16384 main_c_3
  let main_v12 : IVec S16384 1 := cmpi .slt main_arg1 main_v11
  let main_v13 : IVec S16384 1 := andi main_v10 main_v12
  let main_c_4 : IVec S_ 1 := constantI S_ 1 1#1
  let main_v14 : IVec S_ 1 := (fun x v => Host.reduce IntOp.andi x v reducesTo_S16384_S_d0 h_S_) main_v13 main_c_4
  let main_v15 : IVec S_ 1 := andi main_v8 main_v14
  main_v15
-- ==== Kernel.lean ====
abbrev S16384x2048 : Shape := ⟨2, ![16384, 2048]⟩
abbrev S16384 : Shape := ⟨1, ![16384]⟩
abbrev S751x2048 : Shape := ⟨2, ![751, 2048]⟩
abbrev S_ : Shape := ⟨0, ![]⟩
abbrev S768x2048 : Shape := ⟨2, ![768, 2048]⟩
abbrev S16384x1 : Shape := ⟨2, ![16384, 1]⟩
abbrev S2x8x128 : Shape := ⟨3, ![2, 8, 128]⟩
abbrev S512x2048 : Shape := ⟨2, ![512, 2048]⟩
abbrev S512x1 : Shape := ⟨2, ![512, 1]⟩
abbrev S1x8x128 : Shape := ⟨3, ![1, 8, 128]⟩
abbrev S8x128 : Shape := ⟨2, ![8, 128]⟩
abbrev S512x768 : Shape := ⟨2, ![512, 768]⟩
abbrev S512 : Shape := ⟨1, ![512]⟩
abbrev S1x512x1 : Shape := ⟨3, ![1, 512, 1]⟩
abbrev S1 : Shape := ⟨1, ![1]⟩
abbrev S1x1x1 : Shape := ⟨3, ![1, 1, 1]⟩
abbrev S2x1x1 : Shape := ⟨3, ![2, 1, 1]⟩
abbrev S2 : Shape := ⟨1, ![2]⟩

abbrev nBuf : Space → Nat
  | .hbm => 15
  | .vmem => 7
  | .smem => 0
  | _ => 0

abbrev bufTy : (tb : Table) → Fin (tcTables nBuf tb) → BufTy
  | .hbm, ⟨0, _⟩ => ⟨S16384x2048, .f32⟩
  | .hbm, ⟨1, _⟩ => ⟨S16384, .i32⟩
  | .hbm, ⟨2, _⟩ => ⟨S751x2048, .f32⟩
  | .hbm, ⟨3, _⟩ => ⟨S_, .i32⟩
  | .hbm, ⟨4, _⟩ => ⟨S_, .f32⟩
  | .hbm, ⟨5, _⟩ => ⟨S768x2048, .f32⟩
  | .hbm, ⟨6, _⟩ => ⟨S768x2048, .bf16⟩
  | .hbm, ⟨7, _⟩ => ⟨S16384x1, .i32⟩
  | .hbm, ⟨8, _⟩ => ⟨S2x8x128, .f32⟩
  | .hbm, ⟨9, _⟩ => ⟨S2x1x1, .f32⟩
  | .hbm, ⟨10, _⟩ => ⟨S2, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .local _ .vmem, ⟨0, _⟩ => ⟨S512x2048, .f32⟩
  | .local _ .vmem, ⟨1, _⟩ => ⟨S512x2048, .f32⟩
  | .local _ .vmem, ⟨2, _⟩ => ⟨S512x1, .i32⟩
  | .local _ .vmem, ⟨3, _⟩ => ⟨S512x1, .i32⟩
  | .local _ .vmem, ⟨4, _⟩ => ⟨S768x2048, .bf16⟩
  | .local _ .vmem, ⟨5, _⟩ => ⟨S1x8x128, .f32⟩
  | .local _ .vmem, ⟨6, _⟩ => ⟨S1x8x128, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S768x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  pads_S751x2048_S768x2048_0170_000 : S751x2048.Pads (![0, 0] : Fin 2 → Nat) ![17, 0] ![0, 0] S768x2048
  h_S_ : 0 < S_.numel
  bitsLt_bf16_f32 : FTy.bits .bf16 < FTy.bits .f32
  shapeCasts_S16384_S16384x1 : S16384.ShapeCasts S16384x1
  inb_S1x8x128_S1x8x128_0_0_0 : ∀ a, (![0, 0, 0] : Fin 3 → Nat) a + S1x8x128.size a ≤ S1x8x128.size a
  h_S1x8x128 : 0 < S1x8x128.numel
  shapeCasts_S1x8x128_S8x128 : S1x8x128.ShapeCasts S8x128
  shapeCasts_S8x128_S1x8x128 : S8x128.ShapeCasts S1x8x128
  inb_S512x2048_S512x2048_0_0 : ∀ a, (![0, 0] : Fin 2 → Nat) a + S512x2048.size a ≤ S512x2048.size a
  h_S512x2048 : 0 < S512x2048.numel
  inb_S512x1_S512x1_0_0 : ∀ a, (![0, 0] : Fin 2 → Nat) a + S512x1.size a ≤ S512x1.size a
  h_S512x1 : 0 < S512x1.numel
  shapeCasts_S512x1_S512x1 : S512x1.ShapeCasts S512x1
  iota_S512x768_d1_w32 : S512x768.Iotas .tc 32 [1]
  broadcasts_S512x1_S512x768 : S512x1.Broadcasts S512x768
  natLt_1_32 : 1 < 32
  inb_S768x2048_S768x2048_0_0 : ∀ a, (![0, 0] : Fin 2 → Nat) a + S768x2048.size a ≤ S768x2048.size a
  h_S768x2048 : 0 < S768x2048.numel
  shapeCasts_S768x2048_S768x2048 : S768x2048.ShapeCasts S768x2048
  reduces_S512x2048_S512 : S512x2048.Reduces [1] S512
  shapeCasts_S512_S512x1 : S512.ShapeCasts S512x1
  shapeCasts_S512x1_S1x512x1 : S512x1.ShapeCasts S1x512x1
  reduces_S1x512x1_S1 : S1x512x1.Reduces [1, 2] S1
  shapeCasts_S1_S1x1x1 : S1.ShapeCasts S1x1x1
  inpos_S1x1x1_p0_0_0 : ∀ a, (![0, 0, 0] : Fin 3 → Nat) a < S1x1x1.size a
  slices_S2x8x128_S2x1x1_0_0_0 : S2x8x128.Slices ![0, 0, 0] S2x1x1
  shapeCasts_S2x1x1_S2 : S2x1x1.ShapeCasts S2
  reducesTo_S2_S_d0 : S2.ReducesTo [0] S_
  dot_S512x768_S768x2048_S512x2048_1_0_0_1_n_n_wf : DotDims.WF S512x768 S768x2048 S512x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S16384x2048.size a
  hwx0_0 : ∀ i : grid0.Coords, EltTy.bits .f32 = 32 ∨ (Rect.block (s := S16384x2048) S512x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1.size a ≤ S16384x1.size a
  hwx0_1 : ∀ i : grid0.Coords, EltTy.bits .i32 = 32 ∨ (Rect.block (s := S16384x1) S512x1.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S768x2048.size a ≤ S768x2048.size a
  hwx0_2 : ∀ i : grid0.Coords, EltTy.bits .bf16 = 32 ∨ (Rect.block (s := S768x2048) S768x2048.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x8x128.size a ≤ S2x8x128.size a
  hwx0_3 : ∀ i : grid0.Coords, EltTy.bits .f32 = 32 ∨ (Rect.block (s := S2x8x128) S1x8x128.size (cc0_transform_3 i) (hinb0_3 i)).WholeWords (EltTy.packing .f32)

variable [Facts₀]

def dot_S512x768_S768x2048_S512x2048_1_0_0_1_n_n : DotDims S512x768 S768x2048 S512x2048 where
  lhsContracting := [1]
  rhsContracting := [0]
  lhsNonContracting := [0]
  rhsNonContracting := [1]
  lhsBatch := []
  rhsBatch := []
  wf := dot_S512x768_S768x2048_S512x2048_1_0_0_1_n_n_wf

abbrev win0_0 : Pipeline.Window sig grid0 :=
  Pipeline.Window.ofSpec (Memref.whole main_arg0) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S512x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S768x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x8x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16384x2048 : Shape := ⟨2, ![16384, 2048]⟩
abbrev S16384 : Shape := ⟨1, ![16384]⟩
abbrev S751x2048 : Shape := ⟨2, ![751, 2048]⟩
abbrev S_ : Shape := ⟨0, ![]⟩
abbrev S16384x1 : Shape := ⟨2, ![16384, 1]⟩

abbrev nBuf : Space → Nat
  | .hbm => 38
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S16384, .i32⟩
  | .hbm, ⟨2, _⟩ => ⟨S751x2048, .f32⟩
  | .hbm, ⟨3, _⟩ => ⟨S_, .i32⟩
  | .hbm, ⟨4, _⟩ => ⟨S16384, .i32⟩
  | .hbm, ⟨5, _⟩ => ⟨S16384, .i1⟩
  | .hbm, ⟨6, _⟩ => ⟨S_, .i32⟩
  | .hbm, ⟨7, _⟩ => ⟨S16384, .i32⟩
  | .hbm, ⟨8, _⟩ => ⟨S16384, .i32⟩
  | .hbm, ⟨9, _⟩ => ⟨S16384, .i32⟩
  | .hbm, ⟨10, _⟩ => ⟨S16384x1, .i32⟩
  | .hbm, ⟨11, _⟩ => ⟨S16384x2048, .f32⟩
  | .hbm, ⟨12, _⟩ => ⟨S16384x2048, .f32⟩
  | .hbm, ⟨13, _⟩ => ⟨S_, .f32⟩
  | .hbm, ⟨14, _⟩ => ⟨S16384, .f32⟩
  | .hbm, ⟨15, _⟩ => ⟨S16384x2048, .f32⟩
  | .hbm, ⟨16, _⟩ => ⟨S_, .f32⟩
  | .hbm, ⟨17, _⟩ => ⟨S16384, .f32⟩
  | .hbm, ⟨18, _⟩ => ⟨S16384, .f32⟩
  | .hbm, ⟨19, _⟩ => ⟨S16384x2048, .f32⟩
  | .hbm, ⟨20, _⟩ => ⟨S_, .f32⟩
  | .hbm, ⟨21, _⟩ => ⟨S16384, .f32⟩
  | .hbm, ⟨22, _⟩ => ⟨S_, .f32⟩
  | .hbm, ⟨23, _⟩ => ⟨S16384, .f32⟩
  | .hbm, ⟨24, _⟩ => ⟨S16384, .f32⟩
  | .hbm, ⟨25, _⟩ => ⟨S16384, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S16384, .f32⟩
  | .hbm, ⟨30, _⟩ => ⟨S16384, .f32⟩
  | .hbm, ⟨31, _⟩ => ⟨S_, .f32⟩
  | .hbm, ⟨32, _⟩ => ⟨S16384, .f32⟩
  | .hbm, ⟨33, _⟩ => ⟨S16384, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_c_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_cst_3 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_4 : Ref sig .tc := ⟨.hbm, 26, rfl⟩
abbrev main_cst_5 : Ref sig .tc := ⟨.hbm, 27, rfl⟩
abbrev main_call0_v0 : Ref sig .tc := ⟨.hbm, 28, rfl⟩
abbrev main_call0_v1 : Ref sig .tc := ⟨.hbm, 29, rfl⟩
abbrev main_call0_v2 : Ref sig .tc := ⟨.hbm, 30, rfl⟩
abbrev main_call0_v3 : Ref sig .tc := ⟨.hbm, 31, rfl⟩
abbrev main_call0_v4 : Ref sig .tc := ⟨.hbm, 32, rfl⟩
abbrev main_v17 : Ref sig .tc := ⟨.hbm, 33, rfl⟩
abbrev main_cst_6 : Ref sig .tc := ⟨.hbm, 34, rfl⟩
abbrev main_v18 : Ref sig .tc := ⟨.hbm, 35, rfl⟩
abbrev main_cst_7 : Ref sig .tc := ⟨.hbm, 36, rfl⟩
abbrev main_v19 : Ref sig .tc := ⟨.hbm, 37, rfl⟩

abbrev nD : Nat := 1
abbrev τ : Topo := Topo.v7x

variable {F : FTy → Type} [FloatOps F]

class Facts₀ : Prop where
  bcast_S_S16384 : S_.BroadcastsInDim S16384 (![] : Fin 0 → Fin S16384.rank)
  bcast_S16384_S16384x1_0 : S16384.BroadcastsInDim S16384x1 (![0] : Fin 1 → Fin S16384x1.rank)
  reducesTo_S16384x2048_S16384_d1 : S16384x2048.ReducesTo [1] S16384
  h_S_ : 0 < S_.numel
  reducesTo_S16384_S_d0 : S16384.ReducesTo [0] S_
  gather_S751x2048_S16384x1_S16384x2048_1_0_n_n_0_1_12048_wf : GatherDims.WF S751x2048 S16384x1 S16384x2048 [1] [0] [] [0] [] 1 ![1, 2048]

variable [Facts₀]

def gather_S751x2048_S16384x1_S16384x2048_1_0_n_n_0_1_12048 : GatherDims S751x2048 S16384x1 S16384x2048 where
  offsetDims := [1]
  collapsedSliceDims := [0]
  operandBatchingDims := []
  startIndicesBatchingDims := []
  startIndexMap := [0]
  indexVectorDim := 1
  sliceSizes := ![1, 2048]
  wf := gather_S751x2048_S16384x1_S16384x2048_1_0_n_n_0_1_12048_wf

class Facts : Prop extends Facts₀ where

variable [Facts]
-- ==== Proof.Spec.lean ====
/-
  The mathematics both programs compute, stated once over the argument arrays as functions into the extended reals.

  Row r of the batch (16384 rows of 2048 entries) belongs to class `cls r` (751 classes, one centre row each).
  Its squared distance to its class centre is Σ_d (x[r,d] − cen[cls r,d])², clipped into [lo, hi]
  (the two single-precision words for 1e-12 and 1e12, never evaluated: both programs carry the same words),
  and the result is the sum of the clipped distances over all rows, divided by the word for 16384.
-/
import Idealize.ShloMosaic.PureOps.Ideal
import Idealize.ShloMosaic.PureOps.Ideal.Laws
import Idealize.ShloMosaic.Lib.ValueIdx

noncomputable section

open scoped BigOperators

namespace Cert.CenterLoss

open Idealize.ShloMosaic Idealize.ShloMosaic.ValueIdx

/-- The batch: 16384 rows of 2048 features. -/
abbrev SX : Shape := ⟨2, ![16384, 2048]⟩
/-- The labels: one 32-bit word per row. -/
abbrev SL : Shape := ⟨1, ![16384]⟩
/-- The class centres: 751 rows of 2048 features. -/
abbrev SC : Shape := ⟨2, ![751, 2048]⟩
/-- A scalar. -/
abbrev S0 : Shape := ⟨0, ![]⟩

/-- The lower clip bound, as the word both programs carry. -/
def lo : EReal := Ideal.ofBits .f32 0x2B8CBCCC#32
/-- The upper clip bound, as the word both programs carry. -/
def hi : EReal := Ideal.ofBits .f32 0x5368D4A5#32
/-- The batch size as the float word both programs divide by. -/
def cnt : EReal := Ideal.ofBits .f32 0x46800000#32

/-- The clip into [lo, hi]: first raised to the lower bound, then lowered to the upper one. -/
def clip (v : EReal) : EReal := min hi (max lo v)

/-- Row `r`'s squared distance to the centre of class `k`: the sum of the squared differences. -/
def sqDist (x : SX.Idx → EReal) (cen : SC.Idx → EReal) (r : Fin 16384) (k : Fin 751) : EReal :=
  ∑ d : Fin 2048, (x (ix2 r d) - cen (ix2 k d)) * (x (ix2 r d) - cen (ix2 k d))

/-- The same distance expanded: ‖x_r‖² + ‖c_k‖² − 2·⟨x_r, c_k⟩, the constant two as its single-precision word. -/
def sqDistExpanded (x : SX.Idx → EReal) (cen : SC.Idx → EReal) (r : Fin 16384) (k : Fin 751) : EReal :=
  ((∑ d : Fin 2048, x (ix2 r d) * x (ix2 r d)) + ∑ d : Fin 2048, cen (ix2 k d) * cen (ix2 k d))
    - Ideal.ofBits .f32 0x40000000#32 * ∑ d : Fin 2048, x (ix2 r d) * cen (ix2 k d)

/-- The sum over the batch of the clipped squared distances, each row against its own class centre. -/
def total (x : SX.Idx → EReal) (cen : SC.Idx → EReal) (cls : Fin 16384 → Fin 751) : EReal :=
  ∑ r : Fin 16384, clip (sqDist x cen r (cls r))

/-- The result of both programs: the mean clipped squared distance, as a scalar array. -/
def meanLoss (x : SX.Idx → EReal) (cen : SC.Idx → EReal) (cls : Fin 16384 → Fin 751) : S0.Idx → EReal :=
  fun _ => Ideal.div (total x cen cls) cnt

/-- The domain of the claim: every entry of the batch and of the centres is a real number, and every label,
    read as a signed word, is a class index. -/
structure InDomain (x : SX.Idx → EReal) (lab : SL.Idx → BitVec 32) (cen : SC.Idx → EReal) : Prop where
  x_real : ∀ i, ∃ a : ℝ, x i = (a : EReal)
  cen_real : ∀ i, ∃ a : ℝ, cen i = (a : EReal)
  lab_nonneg : ∀ i, 0 ≤ (lab i).toInt
  lab_lt : ∀ i, (lab i).toInt < 751

/-- A non-negative signed word below 751 is below 751 as an unsigned one. -/
theorem InDomain.toNat_lt {x : SX.Idx → EReal} {lab : SL.Idx → BitVec 32} {cen : SC.Idx → EReal}
    (h : InDomain x lab cen) (i : SL.Idx) : (lab i).toNat < 751 := by
  have h0 := h.lab_nonneg i
  have h1 := h.lab_lt i
  have := BitVec.toInt_eq_toNat_cond (lab i)
  have hlt := (lab i).isLt
  split at this <;> omega

/-- The class of row `r`: its label, in range on the domain. -/
def classOf {x : SX.Idx → EReal} {lab : SL.Idx → BitVec 32} {cen : SC.Idx → EReal} (h : InDomain x lab cen)
    (r : Fin 16384) : Fin 751 := ⟨(lab (ix1 r)).toNat, h.toNat_lt (ix1 r)⟩

end Cert.CenterLoss

end
-- ==== Proof.PreDomain.lean ====
/-
  The domain of the claim, read off the printed precondition.

  The precondition is the conjunction of three statements, each an "all" over an array of one-bit words:
  every |x[r,d]| is below +∞, every |cen[k,d]| is below +∞, and every label word is ≥ 0 and < 751 as a signed word.
  A conjunction of bits that is 1 has both bits 1; an "all" that is 1 had a 1 at every index; an extended real whose
  absolute value max v (−v) is below +∞ is neither +∞ nor −∞, hence a real; and the two signed comparisons say
  0 ≤ toInt and toInt < 751.
-/
import proofs.«424945_j3917010174521_2_alg».proof.Proof.Spec
import proofs.«424945_j3917010174521_2_alg».proof.Pre_finite_inputs
import Idealize.ShloMosaic.Lib.ReduceAll
import Idealize.ShloMosaic.Lib.StableHlo.Predicate
import Idealize.ShloMosaic.Lib.ValueIdx
import Idealize.ShloMosaic.PureOps.Ideal

noncomputable section

namespace Cert.CenterLoss

open Idealize.ShloMosaic Idealize.ShloMosaic.ValueIdx

/-- The scalar shape has one index. -/
instance subsingleton_scalar_idx : Subsingleton Cert.Pre_finite_inputs.S_.Idx := ⟨fun a b => funext fun d => d.elim0⟩

/-- The single-precision word 0x7F800000 denotes +∞. -/
theorem ofBits_inf : Ideal.ofBits .f32 0x7F800000#32 = (⊤ : EReal) := by simp [Ideal.ofBits, Ideal.ieee]

/-- An extended real whose absolute value max v (−v) compares below +∞ is a real number. -/
theorem real_of_abs_lt_inf (v : EReal)
    (h : Ideal.cmp .olt (max v (-v)) (Ideal.ofBits .f32 0x7F800000#32) = 1#1) : ∃ a : ℝ, v = (a : EReal) := by
  rw [ofBits_inf] at h
  unfold Ideal.cmp at h
  rw [StableHlo.Predicate.ofBool_eq_one_iff] at h
  have hlt : max v (-v) < ⊤ := by simpa using h
  induction v using EReal.rec with
  | bot => simp at hlt
  | coe a => exact ⟨a, rfl⟩
  | top => simp at hlt

/-- A word that compares ≥ 0 signed has a non-negative signed value. -/
theorem toInt_nonneg_of_sge (a : BitVec 32) (h : IntOp.cmpi .sge a 0#32 = 1#1) : 0 ≤ a.toInt := by
  unfold IntOp.cmpi at h
  rw [StableHlo.Predicate.ofBool_eq_one_iff] at h
  have h' : (0#32 : BitVec 32).toInt ≤ a.toInt := by simpa [BitVec.sle] using h
  simpa using h'

/-- A word that compares < 751 signed has a signed value below 751. -/
theorem toInt_lt_of_slt (a : BitVec 32) (h : IntOp.cmpi .slt a 751#32 = 1#1) : a.toInt < 751 := by
  unfold IntOp.cmpi at h
  rw [StableHlo.Predicate.ofBool_eq_one_iff] at h
  have h' : a.toInt < (751#32 : BitVec 32).toInt := by simpa [BitVec.slt] using h
  have e : (751#32 : BitVec 32).toInt = 751 := by decide
  rwa [e] at h'

/-- THE PRECONDITION DECODED: where the printed predicate is 1, the arguments lie in the domain of the claim. -/
theorem inDomain_of_pre [Cert.Pre_finite_inputs.Facts] (x : SX.Idx → EReal) (lab : SL.Idx → BitVec 32) (cen : SC.Idx → EReal)
    (hpre : Cert.Pre_finite_inputs.fn (F := Ideal) x lab cen = fun _ => 1#1) : InDomain x lab cen := by
  have e := congrFun hpre ix0
  dsimp only [Cert.Pre_finite_inputs.fn] at e
  simp only [andi] at e
  rw [IntOp.andi_eq_one, IntOp.andi_eq_one] at e
  obtain ⟨⟨hx, hc⟩, hl⟩ := e
  -- each "all" gives its element fact at every index
  have hxi := Host.reduce_andi_all _ _ _ _ ix0 hx
  have hci := Host.reduce_andi_all _ _ _ _ ix0 hc
  have hli := Host.reduce_andi_all _ _ _ _ ix0 hl
  refine ⟨fun i => real_of_abs_lt_inf (x i) (hxi i), fun i => real_of_abs_lt_inf (cen i) (hci i), fun i => ?_, fun i => ?_⟩
  · exact toInt_nonneg_of_sge (lab i) (IntOp.andi_eq_one.1 (hli i)).1
  · exact toInt_lt_of_slt (lab i) (IntOp.andi_eq_one.1 (hli i)).2

end Cert.CenterLoss

end
-- ==== Proof.LibRowDims.lean ====
/-
  Dimension numbers over symbolic extents, each read in coordinates:
  * a plain contraction `[M, K] × [K, N]` is the sum over the contracted coordinate;
  * a row gather — `x[idx]` of a table `[N, C]` at start indices `[R, 1]` — reads row `idx r` of the table,
    the start index taken signed and clamped into `[0, N − 1]`;
  * a row scatter-add into a table `[N, C]` adds update row `r` at row `idx r` of the table when that row exists
    (the start index taken signed, not clamped) and nowhere otherwise, so the entry `(a, b)` of the result is the
    table's entry plus the sum of the updates' entries `(r, b)` over the rows `r` with `idx r = a`.
-/
import Idealize.ShloMosaic.PureOps.Ideal
import Idealize.ShloMosaic.PureOps.Ideal.Laws
import Idealize.ShloMosaic.Lib.ValueIdx

noncomputable section

open scoped BigOperators

namespace Idealize.ShloMosaic.RowDims

open Idealize.ShloMosaic Idealize.ShloMosaic.ValueIdx

/-! ## A plain contraction -/

/-- The left operand's row coordinate is the output's row, whatever the contraction position. -/
theorem plain_lhsIdx_row {M K N : Nat} (p : Fin M) (q : Fin N) (k : (DotDims.plain M K N).contr.Idx) :
    ((DotDims.plain M K N).lhsIdx (ix2 p q) k 0).val = p.val := rfl

/-- The right operand's column coordinate is the output's column, whatever the contraction position. -/
theorem plain_rhsIdx_col {M K N : Nat} (p : Fin M) (q : Fin N) (k : (DotDims.plain M K N).contr.Idx) :
    ((DotDims.plain M K N).rhsIdx (ix2 p q) k 1).val = q.val := rfl

/-- The contraction sum of `DotDims.plain M K N` at the output entry `(p, q)` runs over the `K` products
    `lhs (p, k) · rhs (k, q)`. -/
theorem plain_sum {M K N : Nat} (lhs : (⟨2, ![M, K]⟩ : Shape).Idx → EReal) (rhs : (⟨2, ![K, N]⟩ : Shape).Idx → EReal)
    (p : Fin M) (q : Fin N) :
    ∑ k : (DotDims.plain M K N).contr.Idx,
        lhs ((DotDims.plain M K N).lhsIdx (ix2 p q) k) * rhs ((DotDims.plain M K N).rhsIdx (ix2 p q) k)
      = ∑ k : Fin K, lhs (ix2 p k) * rhs (ix2 k q) := by
  -- re-index the sum by the one contracted coordinate
  rw [← Equiv.sum_comp (contrEquiv1 (DotDims.plain M K N) K rfl rfl).symm]
  refine Finset.sum_congr rfl fun k _ => ?_
  -- the left operand is read at (p, k): its row from the output, its column the contracted coordinate
  have hl : (DotDims.plain M K N).lhsIdx (ix2 p q) ((contrEquiv1 (DotDims.plain M K N) K rfl rfl).symm k) = ix2 p k := by
    funext a
    refine Fin.ext ?_
    match a with
    | ⟨0, _⟩ => exact plain_lhsIdx_row p q _
    | ⟨1, _⟩ =>
      exact ((DotDims.plain M K N).lhsIdx_val_of_single (cl := 1) rfl _ _).trans
        (contrEquiv1_symm_val (DotDims.plain M K N) K rfl rfl k)
  -- the right operand is read at (k, q): its row the contracted coordinate, its column from the output
  have hr : (DotDims.plain M K N).rhsIdx (ix2 p q) ((contrEquiv1 (DotDims.plain M K N) K rfl rfl).symm k) = ix2 k q := by
    funext a
    refine Fin.ext ?_
    match a with
    | ⟨0, _⟩ =>
      exact ((DotDims.plain M K N).rhsIdx_val_of_single (cr := 0) rfl _ _).trans
        (contrEquiv1_symm_val (DotDims.plain M K N) K rfl rfl k)
    | ⟨1, _⟩ => exact plain_rhsIdx_col p q _
  rw [hl, hr]

/-- A matrix-unit product into the zero accumulator, at the ideal values, entry by entry. -/
theorem matmul_plain_zero_apply {M K N : Nat} {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul (DotDims.plain M K N) prec lhs rhs (constant ⟨2, ![M, N]⟩ .f32 0x00000000#32) (ix2 p q)
      = ∑ k : Fin K, lhs (ix2 p k) * rhs (ix2 k q) := by
  rw [Ideal.matmul_constant_zero_apply]
  exact plain_sum lhs rhs p q

/-- The host's product of the same operands, at the ideal values, entry by entry: the same sum. -/
theorem dotGeneral_plain_apply {M K N : Nat} {φ₁ φ₂ : FTy} (prec : Option ContractPrecision) (sched : HostSchedule)
    (lhs : FVec Ideal ⟨2, ![M, K]⟩ φ₁) (rhs : FVec Ideal ⟨2, ![K, N]⟩ φ₂) (p : Fin M) (q : Fin N) :
    FloatOps.dotGeneral (DotDims.plain M K N) prec sched lhs rhs (ix2 p q)
      = ∑ k : Fin K, lhs (ix2 p k) * rhs (ix2 k q) := by
  rw [Ideal.dotGeneral_apply]
  exact plain_sum lhs rhs p q

/-! ## A row gather -/

/-- The dimension numbers of `x[idx]` for a table `[N, C]`, start indices `[R, 1]` and result `[R, C]`. -/
abbrev rowGather (N C R : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- The table row a start index selects: the index read signed and clamped into `[0, N − 1]`. -/
def clampRow (N : Nat) (hN : 0 < N) {w : Nat} (v : BitVec w) : Fin N := ⟨min v.toInt.toNat (N - 1), by omega⟩

/-- The result entry `(r, c)` reads its one start-index component at `(r, 0)` of the start indices. -/
theorem rowGather_siIdx {N C R : Nat}
    (wf : GatherDims.WF ⟨2, ![N, C]⟩ ⟨2, ![R, 1]⟩ ⟨2, ![R, C]⟩ [1] [0] [] [0] [] 1 ![1, C]) (r : Fin R) (c : Fin C) :
    (rowGather N C R wf).siIdx (ix2 r c) ⟨List.idxOf (0 : Fin 2) (rowGather N C R wf).startIndexMap,
      List.idxOf_lt_length_iff.2 (List.mem_singleton.mpr rfl)⟩ = ix2 r 0 := by
  funext b; refine Fin.ext ?_
  match b with
  | ⟨0, _⟩ => rfl
  | ⟨1, _⟩ => rfl

/-- On the table's row axis (collapsed, named by the start index map) the operand index is the clamped start alone:
    no batching coordinate, no offset coordinate, and the slice size `1` leaves the clamp's upper bound `N − 1`. -/
theorem rowGather_operandIdx_row {N C R w : Nat} (hN : 0 < N)
    (wf : GatherDims.WF ⟨2, ![N, C]⟩ ⟨2, ![R, 1]⟩ ⟨2, ![R, C]⟩ [1] [0] [] [0] [] 1 ![1, C])
    (idx : IVec ⟨2, ![R, 1]⟩ w) (r : Fin R) (c : Fin C) :
    ((rowGather N C R wf).operandIdx (ix2 r c) idx 0).val = (clampRow N hN (idx (ix2 r 0))).val := by
  show (rowGather N C R wf).start (ix2 r c) idx 0 + (rowGather N C R wf).batchCoord (ix2 r c) 0
    + (rowGather N C R wf).offCoord (ix2 r c) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ (rowGather N C R wf).startIndexMap from List.mem_singleton.mpr rfl)]
  rw [rowGather_siIdx wf r c]
  rfl

/-- On the table's column axis (the offset axis, not named by the start index map) the operand index is the offset
    coordinate alone: the result's column. -/
theorem rowGather_operandIdx_col {N C R w : Nat}
    (wf : GatherDims.WF ⟨2, ![N, C]⟩ ⟨2, ![R, 1]⟩ ⟨2, ![R, C]⟩ [1] [0] [] [0] [] 1 ![1, C])
    (idx : IVec ⟨2, ![R, 1]⟩ w) (r : Fin R) (c : Fin C) :
    ((rowGather N C R wf).operandIdx (ix2 r c) idx 1).val = c.val := by
  show (rowGather N C R wf).start (ix2 r c) idx 1 + (rowGather N C R wf).batchCoord (ix2 r c) 1
    + (rowGather N C R wf).offCoord (ix2 r c) 1 = _
  rw [GatherDims.batchCoord_eq_zero _ _ _ List.not_mem_nil]
  unfold GatherDims.start
  rw [dif_neg (show ¬ (1 : Fin 2) ∈ (rowGather N C R wf).startIndexMap from
    fun h => absurd (congrArg Fin.val (List.mem_singleton.mp h)) Nat.one_ne_zero)]
  simp only [Nat.add_zero, Nat.zero_add]
  rfl

/-- The gather read at `(r, c)`: the table at row `clampRow (idx (r, 0))`, column `c`. -/
theorem rowGather_apply {α : Type} {N C R w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (r : Fin R) (c : Fin C) :
    Host.gather (rowGather N C R wf) x idx (ix2 r c) = x (ix2 (clampRow N hN (idx (ix2 r 0))) c) := by
  unfold Host.gather
  congr 1
  funext a
  refine Fin.ext ?_
  match a with
  | ⟨0, _⟩ => exact rowGather_operandIdx_row hN wf idx r c
  | ⟨1, _⟩ => exact rowGather_operandIdx_col wf idx r c

/-! ## A row scatter-add -/

/-- The dimension numbers of `x.at[idx].add(u)` for a table `[N, C]`, scatter indices `[R, 1]` and updates `[R, C]`. -/
abbrev rowScatter (N C R : Nat) (wf : ScatterDims.WF ⟨2, ![N, C]⟩ ⟨2, ![R, 1]⟩ ⟨2, ![R, C]⟩ [1] [0] [0] 1) :
    ScatterDims ⟨2, ![N, C]⟩ ⟨2, ![R, 1]⟩ ⟨2, ![R, C]⟩ where
  updateWindowDims := [1]
  insertedWindowDims := [0]
  scatterDimsToOperandDims := [0]
  indexVectorDim := 1
  wf := wf

/-- The update entry `(r, c)` reads its one start-index component at `(r, 0)` of the scatter indices. -/
theorem rowScatter_siIdx {N C R : Nat}
    (wf : ScatterDims.WF ⟨2, ![N, C]⟩ ⟨2, ![R, 1]⟩ ⟨2, ![R, C]⟩ [1] [0] [0] 1) (r : Fin R) (c : Fin C) :
    (rowScatter N C R wf).siIdx (ix2 r c) ⟨List.idxOf (0 : Fin 2) (rowScatter N C R wf).scatterDimsToOperandDims,
      List.idxOf_lt_length_iff.2 (List.mem_singleton.mpr rfl)⟩ = ix2 r 0 := by
  funext b; refine Fin.ext ?_
  match b with
  | ⟨0, _⟩ => rfl
  | ⟨1, _⟩ => rfl

/-- On the table's row axis the window starts at the scatter index of the update's row, read signed. -/
theorem rowScatter_start_row {N C R w : Nat}
    (wf : ScatterDims.WF ⟨2, ![N, C]⟩ ⟨2, ![R, 1]⟩ ⟨2, ![R, C]⟩ [1] [0] [0] 1)
    (idx : IVec ⟨2, ![R, 1]⟩ w) (r : Fin R) (c : Fin C) :
    (rowScatter N C R wf).start (ix2 r c) idx 0 = (idx (ix2 r 0)).toInt := by
  unfold ScatterDims.start
  rw [dif_pos (show (0 : Fin 2) ∈ (rowScatter N C R wf).scatterDimsToOperandDims from List.mem_singleton.mpr rfl),
    rowScatter_siIdx wf r c]

/-- On the table's column axis, which the scatter index does not name, the window starts at `0`. -/
theorem rowScatter_start_col {N C R w : Nat}
    (wf : ScatterDims.WF ⟨2, ![N, C]⟩ ⟨2, ![R, 1]⟩ ⟨2, ![R, C]⟩ [1] [0] [0] 1)
    (idx : IVec ⟨2, ![R, 1]⟩ w) (r : Fin R) (c : Fin C) :
    (rowScatter N C R wf).start (ix2 r c) idx 1 = 0 := by
  unfold ScatterDims.start
  rw [dif_neg (show ¬ (1 : Fin 2) ∈ (rowScatter N C R wf).scatterDimsToOperandDims from
    fun h => absurd (congrArg Fin.val (List.mem_singleton.mp h)) Nat.one_ne_zero)]

/-- The row axis is an inserted axis: its window coordinate is `0`. -/
theorem rowScatter_window_row {N C R : Nat}
    (wf : ScatterDims.WF ⟨2, ![N, C]⟩ ⟨2, ![R, 1]⟩ ⟨2, ![R, C]⟩ [1] [0] [0] 1) (r : Fin R) (c : Fin C) :
    (rowScatter N C R wf).window (ix2 r c) 0 = 0 := rfl

/-- The column axis carries the update's window axis: its window coordinate is the update's column. -/
theorem rowScatter_window_col {N C R : Nat}
    (wf : ScatterDims.WF ⟨2, ![N, C]⟩ ⟨2, ![R, 1]⟩ ⟨2, ![R, C]⟩ [1] [0] [0] 1) (r : Fin R) (c : Fin C) :
    (rowScatter N C R wf).window (ix2 r c) 1 = c.val := rfl

/-- Update entry `(r, c)` lands on table entry `(a, b)` exactly when its start index, read signed, is `a` and `c = b`. -/
theorem rowScatter_resultIdx?_eq_some_iff {N C R w : Nat}
    (wf : ScatterDims.WF ⟨2, ![N, C]⟩ ⟨2, ![R, 1]⟩ ⟨2, ![R, C]⟩ [1] [0] [0] 1)
    (idx : IVec ⟨2, ![R, 1]⟩ w) (r : Fin R) (c : Fin C) (a : Fin N) (b : Fin C) :
    (rowScatter N C R wf).resultIdx? (ix2 r c) idx = some (ix2 a b) ↔ (idx (ix2 r 0)).toInt = (a.val : Int) ∧ c = b := by
  have hs0 := rowScatter_start_row wf idx r c
  have hs1 := rowScatter_start_col wf idx r c
  have hw0 := rowScatter_window_row wf r c
  have hw1 := rowScatter_window_col wf r c
  unfold ScatterDims.resultIdx?
  constructor
  · -- landed at (a, b): the window is inside the table, and its two coordinates are a and b
    intro h
    split at h
    · rename_i hin
      have hf := Option.some.inj h
      have e0 := congrArg (fun f => (f 0).val) hf
      have e1 := congrArg (fun f => (f 1).val) hf
      simp only [hs0, hs1, hw0, hw1] at e0 e1
      have h0 := hin 0
      rw [hs0, hw0] at h0
      have ea : ((ix2 a b : (⟨2, ![N, C]⟩ : Shape).Idx) 0).val = a.val := rfl
      have eb : ((ix2 a b : (⟨2, ![N, C]⟩ : Shape).Idx) 1).val = b.val := rfl
      rw [ea] at e0
      rw [eb] at e1
      refine ⟨by omega, Fin.ext (by omega)⟩
    · exact absurd h (by simp)
  · -- the start index is a row of the table and the column is kept: the window is inside, at (a, c)
    rintro ⟨hv, rfl⟩
    have hin : ∀ a' : Fin 2, 0 ≤ (rowScatter N C R wf).start (ix2 r c) idx a' + (rowScatter N C R wf).window (ix2 r c) a'
        ∧ (rowScatter N C R wf).start (ix2 r c) idx a' + (rowScatter N C R wf).window (ix2 r c) a' < (⟨2, ![N, C]⟩ : Shape).size a' := by
      intro a'
      match a' with
      | ⟨0, _⟩ =>
        show 0 ≤ (rowScatter N C R wf).start (ix2 r c) idx 0 + (rowScatter N C R wf).window (ix2 r c) 0
          ∧ (rowScatter N C R wf).start (ix2 r c) idx 0 + (rowScatter N C R wf).window (ix2 r c) 0 < (N : Int)
        rw [hs0, hw0, hv]; have := a.isLt; constructor <;> omega
      | ⟨1, _⟩ =>
        show 0 ≤ (rowScatter N C R wf).start (ix2 r c) idx 1 + (rowScatter N C R wf).window (ix2 r c) 1
          ∧ (rowScatter N C R wf).start (ix2 r c) idx 1 + (rowScatter N C R wf).window (ix2 r c) 1 < (C : Int)
        rw [hs1, hw1]; have := c.isLt; constructor <;> omega
    rw [dif_pos hin]
    congr 1
    funext a'
    refine Fin.ext ?_
    match a' with
    | ⟨0, _⟩ =>
      show ((rowScatter N C R wf).start (ix2 r c) idx 0 + (rowScatter N C R wf).window (ix2 r c) 0).toNat = a.val
      rw [hs0, hw0, hv]; omega
    | ⟨1, _⟩ =>
      show ((rowScatter N C R wf).start (ix2 r c) idx 1 + (rowScatter N C R wf).window (ix2 r c) 1).toNat = c.val
      rw [hs1, hw1]; omega

/-- The accumulated table at `(a, b)`: the table's entry plus the updates' entries `(r, b)` over the rows whose start
    index is `a`. -/
theorem rowScatterAdd_apply {N C R w : Nat}
    (wf : ScatterDims.WF ⟨2, ![N, C]⟩ ⟨2, ![R, 1]⟩ ⟨2, ![R, C]⟩ [1] [0] [0] 1)
    (x : (⟨2, ![N, C]⟩ : Shape).Idx → EReal) (idx : IVec ⟨2, ![R, 1]⟩ w) (upd : (⟨2, ![R, C]⟩ : Shape).Idx → EReal)
    (a : Fin N) (b : Fin C) :
    Ideal.hostScatterAdd (rowScatter N C R wf) x idx upd (ix2 a b)
      = x (ix2 a b) + ∑ r : Fin R, if (idx (ix2 r 0)).toInt = (a.val : Int) then upd (ix2 r b) else 0 := by
  unfold Ideal.hostScatterAdd
  congr 1
  -- the sum over the update entries that land on (a, b), as a double sum over their rows and columns
  rw [Finset.sum_filter, sum_idx2]
  refine Finset.sum_congr rfl fun r _ => ?_
  simp only [rowScatter_resultIdx?_eq_some_iff]
  -- row r contributes its entry in column b when its start index is a, and nothing otherwise
  by_cases hv : (idx (ix2 r 0)).toInt = (a.val : Int)
  · simp only [hv, true_and, if_true]
    rw [Finset.sum_ite_eq' Finset.univ b (fun c => upd (ix2 r c)), if_pos (Finset.mem_univ b)]
  · simp only [hv, false_and, if_false]
    exact Finset.sum_const_zero

end Idealize.ShloMosaic.RowDims

end
-- ==== Proof.RefValue.lean ====
/-
  The reference program's result as the specification's mean clipped squared distance.

  On the domain every label is a class index, so the reference's wrap of a negative label leaves it unchanged and
  the gathered centre row of batch row r is the centre of the class of r. Each row's value is then the expanded
  form ‖x_r‖² + ‖c‖² − 2·⟨x_r, c⟩, which on real entries is the sum of the squared differences; it is clipped,
  summed over the rows and divided by the batch size.
-/
import proofs.«424945_j3917010174521_2_alg».proof.Proof.Spec
import proofs.«424945_j3917010174521_2_alg».proof.Proof.Gen.ReferenceIdeal.Read
import proofs.«424945_j3917010174521_2_alg».proof.Proof.LibRowDims
import Idealize.ShloMosaic.Lib.ValueIdx
import Idealize.ShloMosaic.Lib.Affine
import Idealize.ShloMosaic.PureOps.Ideal.Laws
import Mathlib.Data.EReal.Operations
import Mathlib.Algebra.BigOperators.Ring.Finset
import Mathlib.Tactic.Ring

noncomputable section

open scoped BigOperators

namespace Cert.ReferenceIdeal.RefValue

open Cert.CenterLoss Cert.ReferenceIdeal Cert.ReferenceIdeal.Gen Cert.ReferenceIdeal.Read
open Idealize.ShloMosaic Idealize.ShloMosaic.ValueIdx Idealize.ShloMosaic.RowDims

/-! ## The algebra: the expanded form is the sum of squared differences -/

/-- The single-precision word 0x40000000 denotes the real number two. -/
theorem ofBits_two : Ideal.ofBits .f32 0x40000000#32 = ((2 : ℝ) : EReal) := by
  simp [Ideal.ofBits, Ideal.ieee, -EReal.coe_mul]; norm_num

/-- The embedding of the reals into the extended reals commutes with finite sums. -/
theorem coe_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- On real entries the expanded form ‖x_r‖² + ‖c_k‖² − 2·⟨x_r, c_k⟩ is the sum of the squared differences:
    with real witnesses a, b for the entries, both sides are the embedding of a real number, and in ℝ
    Σ a² + Σ b² − 2 Σ a b = Σ (a − b)², term by term. -/
theorem sqDistExpanded_eq (x : SX.Idx → EReal) (cen : SC.Idx → EReal)
    (hx : ∀ i, ∃ a : ℝ, x i = (a : EReal)) (hc : ∀ i, ∃ a : ℝ, cen i = (a : EReal))
    (r : Fin 16384) (k : Fin 751) : sqDistExpanded x cen r k = sqDist x cen r k := by
  choose a ha using hx
  choose b hb using hc
  unfold sqDistExpanded sqDist
  simp only [ha, hb, ofBits_two]
  simp only [← EReal.coe_mul, ← EReal.coe_sub, ← coe_sum, ← EReal.coe_add]
  congr 1
  rw [← Finset.sum_add_distrib, Finset.mul_sum, ← Finset.sum_sub_distrib]
  refine Finset.sum_congr rfl fun d _ => ?_
  ring

/-! ## The labels: on the domain the wrapped label is the label, and it selects its own centre row -/

/-- The wrapped label of row r: a label that is not negative is left as it is. -/
theorem wrapped_label (lab : SL.Idx → BitVec 32) (r : Fin 16384) (h0 : 0 ≤ (lab (ix1 r)).toInt) :
    val_main_v4 (F := Ideal) lab (ix1 r) = lab (ix1 r) := by
  rw [val_main_v4_apply, val_main_v1_apply, val_main_v0_apply, val_main_c_apply]
  have hne : ¬ IntOp.cmpi .slt (lab (ix1 r)) 0#32 = 1#1 := by
    rw [IntOp.cmpi_slt]
    have : (0#32 : BitVec 32).toInt = 0 := by decide
    omega
  exact if_neg hne

/-- The start index of row r, read at (r, 0), is the wrapped label of row r. -/
theorem start_index (lab : SL.Idx → BitVec 32) (r : Fin 16384) :
    val_main_v5 (F := Ideal) lab (ix2 r 0) = val_main_v4 (F := Ideal) lab (ix1 r) := by
  rw [val_main_v5_apply]
  congr 1
  funext a
  match a with
  | ⟨0, _⟩ => rfl

/-- A class index, read signed and clamped into [0, 750], is itself. -/
theorem clampRow_label (v : BitVec 32) (h0 : 0 ≤ v.toInt) (h1 : v.toInt < 751) (hlt : v.toNat < 751) :
    clampRow 751 (by decide) v = ⟨v.toNat, hlt⟩ := by
  refine Fin.ext ?_
  show min v.toInt.toNat (751 - 1) = v.toNat
  have := BitVec.toInt_eq_toNat_cond v
  have hb := v.isLt
  split at this <;> omega

/-- The gathered row: entry (r, d) of the gather is the centre of the class of row r at coordinate d. -/
theorem gathered (x : SX.Idx → EReal) (lab : SL.Idx → BitVec 32) (cen : SC.Idx → EReal) (h : InDomain x lab cen)
    (r : Fin 16384) (d : Fin 2048) :
    val_main_v6 (F := Ideal) lab cen (ix2 r d) = cen (ix2 (classOf h r) d) := by
  unfold val_main_v6
  have hrec : gather_S751x2048_S16384x1_S16384x2048_1_0_n_n_0_1_12048
      = rowGather 751 2048 16384 gather_S751x2048_S16384x1_S16384x2048_1_0_n_n_0_1_12048_wf := rfl
  rw [hrec, rowGather_apply (by decide : 0 < 751), start_index, wrapped_label lab r (h.lab_nonneg _),
    clampRow_label _ (h.lab_nonneg _) (h.lab_lt _) (h.toNat_lt _)]
  rfl

/-! ## One row -/

/-- The index the row sums read: row r, coordinate k. -/
theorem idx_row (r : Fin 16384) (k : Fin 2048) : idx_main_v8 (ix1 r) k = ix2 r k := by
  funext a
  match a with
  | ⟨0, _⟩ => rfl
  | ⟨1, _⟩ => rfl

/-- Row r of the reference before the clip is the expanded squared distance to the centre of its class. -/
theorem row_value (x : SX.Idx → EReal) (lab : SL.Idx → BitVec 32) (cen : SC.Idx → EReal) (h : InDomain x lab cen)
    (r : Fin 16384) :
    val_main_v16 (F := Ideal) x lab cen (ix1 r) = sqDistExpanded x cen r (classOf h r) := by
  rw [val_main_v16_apply, val_main_v11_apply, val_main_v15_apply, val_main_v14_apply, val_main_cst_3_apply,
    val_main_v8_apply, val_main_v10_apply, val_main_v13_apply, val_main_cst_apply, val_main_cst_1_apply,
    val_main_cst_2_apply]
  simp only [Ideal.ofBits_def, Ideal.ofBits_zero_f32, zero_add, Ideal.addf_def, Ideal.subf_def, Ideal.mulf_def,
    val_main_v7_apply, val_main_v9_apply, val_main_v12_apply]
  have e8 : ∀ k, idx_main_v8 (ix1 r) k = ix2 r k := idx_row r
  have e10 : ∀ k, idx_main_v10 (ix1 r) k = ix2 r k := idx_row r
  have e13 : ∀ k, idx_main_v13 (ix1 r) k = ix2 r k := idx_row r
  simp only [e8, e10, e13, gathered x lab cen h]
  rfl

/-- Row r of the reference after the clip. -/
theorem row_clipped (x : SX.Idx → EReal) (lab : SL.Idx → BitVec 32) (cen : SC.Idx → EReal) (h : InDomain x lab cen)
    (r : Fin 16384) :
    val_main_v17 (F := Ideal) x lab cen (ix1 r) = clip (sqDist x cen r (classOf h r)) := by
  rw [val_main_v17_apply, val_main_call0_v2_apply, val_main_call0_v4_apply, val_main_call0_v3_apply,
    val_main_cst_5_apply, val_main_call0_v1_apply, val_main_call0_v0_apply, val_main_cst_4_apply,
    row_value x lab cen h r, sqDistExpanded_eq x cen h.x_real h.cen_real]
  rfl

/-! ## The assembly -/

/-- A rank-1 index set is its one coordinate range. -/
def idxEquiv1 {n : Nat} : (⟨1, ![n]⟩ : Shape).Idx ≃ Fin n where
  toFun j := j 0
  invFun := ix1
  left_inv j := (eq_ix1 j).symm
  right_inv _ := rfl

/-- The reference's result is the mean clipped squared distance of the specification. -/
theorem ref_value (x : SX.Idx → EReal) (lab : SL.Idx → BitVec 32) (cen : SC.Idx → EReal) (h : InDomain x lab cen) :
    Cert.ReferenceIdeal.Read.val_main_v19 (F := Ideal) x lab cen = meanLoss x cen (classOf h) := by
  funext i
  rw [val_main_v19_apply, val_main_v18_apply, val_main_cst_6_apply, val_main_cst_7_apply]
  simp only [Ideal.ofBits_def, Ideal.ofBits_zero_f32, zero_add, Ideal.hostDivf_def]
  unfold meanLoss total cnt
  refine congrArg (fun t => Ideal.div t (Ideal.ofBits .f32 0x46800000#32)) ?_
  rw [← Equiv.sum_comp (idxEquiv1 (n := 16384)).symm]
  exact Finset.sum_congr rfl fun r _ => row_clipped x lab cen h r

end Cert.ReferenceIdeal.RefValue

end
-- ==== Proof.KernelPieces.lean ====
/-
  What one grid point leaves in the accumulator block, as a value.

  The body at a grid point loads the point's 512 rows, their 512 labels and the padded centre table, and stores into
  the point's [1, 8, 128] accumulator block the block's previous contents plus the point's partial sum. At the first
  point of each core's sweep it first overwrites the block with zeros and reads those back; at the other points the
  block still holds what the point before left.
-/
import proofs.«424945_j3917010174521_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Pieces

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- A point that is not the first of its core's sweep: the block ends at the update of what it held. -/
theorem out_B (c : Dev nD) (i : grid0.Coords) (a2 : Memref sig .tc .vmem S512x2048 .f32) (h2 : a2.IsWhole)
    (a3 : Memref sig .tc .vmem S512x1 .i32) (h3 : a3.IsWhole) (a4 : Memref sig .tc .vmem S768x2048 .bf16) (h4 : a4.IsWhole)
    (a5 : Memref sig .tc .vmem S1x8x128 .f32) (h5 : a5.IsWhole) (hc : ¬cond0_0 i)
    (x0 : Vec F S512x2048 .f32) (x1 : Vec F S512x1 .i32) (x2 : Vec F S768x2048 .bf16) (xo : Vec F S1x8x128 .f32) :
    out0_B_3 c i a2 h2 a3 h3 a4 h4 a5 h5 hc x0 x1 x2 xo = k0_pay2 x0 x1 x2 xo := by
  unfold out0_B_3
  rw [View.read_writes_eq_canon _ _ _ (cover0_B_3 c i a2 h2 a3 h3 a4 h4 a5 h5 hc x0 x1 x2 xo)]
  unfold kernelRun0_B
  dsimp only
  sl_unfold_words
  rw [View.canon_unit_zero hz3]
  simp only [View.readAt_eq_ld, h2.read_unread, h3.read_unread, h4.read_unread, h5.read_unread,
    View.ld_unit_zero (S := S512x2048) hz2, View.ld_unit_zero (S := S512x1) hz2, View.ld_unit_zero (S := S768x2048) hz2,
    View.ld_unit_zero (S := S1x8x128) hz3]

/-- The first point of a core's sweep: the block is zeroed, read back, and ends at the update of the zero block. -/
theorem out_A (c : Dev nD) (i : grid0.Coords) (a2 : Memref sig .tc .vmem S512x2048 .f32) (h2 : a2.IsWhole)
    (a3 : Memref sig .tc .vmem S512x1 .i32) (h3 : a3.IsWhole) (a4 : Memref sig .tc .vmem S768x2048 .bf16) (h4 : a4.IsWhole)
    (a5 : Memref sig .tc .vmem S1x8x128 .f32) (h5 : a5.IsWhole) (hc : cond0_0 i)
    (x0 : Vec F S512x2048 .f32) (x1 : Vec F S512x1 .i32) (x2 : Vec F S768x2048 .bf16) :
    out0_A_3 c i a2 h2 a3 h3 a4 h4 a5 h5 hc x0 x1 x2 = k0_pay2 x0 x1 x2 (k0_pay1 (F := F)) := by
  unfold out0_A_3
  rw [View.read_writes_eq_canon _ _ _ (cover0_A_3 c i a2 h2 a3 h3 a4 h4 a5 h5 hc x0 x1 x2)]
  unfold kernelRun0_A
  dsimp only
  sl_unfold_words
  rw [View.canon_cons_unit_zero (S := S1x8x128) hz3, View.readCov_unit_zero (S := S1x8x128) _ hz3]
  simp only [View.readAt_eq_ld, h2.read_unread, h3.read_unread, h4.read_unread,
    View.ld_unit_zero (S := S512x2048) hz2, View.ld_unit_zero (S := S512x1) hz2, View.ld_unit_zero (S := S768x2048) hz2]

end Cert.KernelIdeal.Pieces

end
-- ==== Proof.KernelPayload.lean ====
/-
  The update one grid point makes to its accumulator block, read entry by entry over the extended reals.

  A point holds 512 rows `x`, their 512 label words `lab` and the padded centre table `tab` (768 rows, the last 17
  zero). The body builds the 0/1 matrix whose row r has its one in the column numbered by r's label, multiplies it
  with the table — so row r of the product is the table row the label names —, subtracts the product from `x`, sums the
  squared differences along each row, clips each row's sum, adds the 512 clipped sums to ONE number, and adds that
  number to every entry of the accumulator block.
-/
import proofs.«424945_j3917010174521_2_alg».proof.Proof.Gen.KernelIdeal.Skeleton
import proofs.«424945_j3917010174521_2_alg».proof.Proof.Spec
import proofs.«424945_j3917010174521_2_alg».proof.Proof.LibRowDims
import Idealize.ShloMosaic.Lib.Pipeline.Value
import Idealize.ShloMosaic.Lib.ValueIdx
import Idealize.ShloMosaic.Lib.ValueLayout
import Idealize.ShloMosaic.PureOps.Ideal.Laws

noncomputable section

open scoped BigOperators
open Idealize.ShloMosaic Idealize.ShloMosaic.ValueIdx

namespace Cert.KernelIdeal.Payload

open Cert.KernelIdeal Cert.KernelIdeal.Gen Cert.CenterLoss

/-- Entry k of the 0/1 row for the label word l: one exactly at the column whose number is the word. -/
def hot (l : BitVec 32) (k : Fin 768) : EReal := if BitVec.ofNat 32 k.val = l then 1 else 0

/-- Row r of the product of the 0/1 matrix with the table, at column d. -/
def picked (lab : IVec S512x1 32) (tab : FVec Ideal S768x2048 .bf16) (r : Fin 512) (d : Fin 2048) : EReal :=
  ∑ k : Fin 768, hot (lab (ix2 r 0)) k * tab (ix2 k d)

/-- Row r's sum of squared differences to its picked table row. -/
def rowSq (x : FVec Ideal S512x2048 .f32) (lab : IVec S512x1 32) (tab : FVec Ideal S768x2048 .bf16) (r : Fin 512) : EReal :=
  ∑ d : Fin 2048, (x (ix2 r d) - picked lab tab r d) * (x (ix2 r d) - picked lab tab r d)

/-- The point's partial sum: the 512 clipped row sums added up. -/
def blockSum (x : FVec Ideal S512x2048 .f32) (lab : IVec S512x1 32) (tab : FVec Ideal S768x2048 .bf16) : EReal :=
  ∑ r : Fin 512, clip (rowSq x lab tab r)

/-! ### The pieces of the body's arithmetic, each read at an index -/

/-- The 0/1 matrix at (r, k): the compare of the column number with row r's label word, widened and converted. -/
theorem hot_apply (lab : IVec S512x1 32) (hS : S512x1.ShapeCasts S512x1) (hI : S512x768.Iotas .tc 32 [1])
    (hB : S512x1.Broadcasts S512x768) (hlt : 1 < 32) (hb : FTy.bits .bf16 < FTy.bits .f32) (r : Fin 512) (k : Fin 768) :
    (truncf .bf16 (sitofp (F := Ideal) .f32 (extui 32 (cmpi .eq (iota .tc S512x768 32 [1] hI)
      (broadcastTo S512x768 (shapeCast S512x1 lab hS) hB)) hlt)) hb : FVec Ideal S512x768 .bf16) (ix2 r k)
      = hot (lab (ix2 r 0)) k := by
  show ((((IntOp.cmpi .eq (iota .tc S512x768 32 [1] hI (ix2 r k))
    (broadcastTo S512x768 (shapeCast S512x1 lab hS) hB (ix2 r k))).setWidth 32).toInt : ℝ) : EReal) = _
  rw [iota_single_apply, broadcastTo_apply (shapeCast S512x1 lab hS) hB (ix2 r k) (ix2 r 0)
    (fun a => match a with | ⟨0, _⟩ => rfl | ⟨1, _⟩ => rfl), shapeCast_self]
  unfold hot
  show ((((BitVec.ofBool (BitVec.ofNat 32 k.val == lab (ix2 r 0))).setWidth 32).toInt : ℝ) : EReal) = _
  by_cases h : BitVec.ofNat 32 k.val = lab (ix2 r 0)
  · rw [if_pos h, beq_iff_eq.mpr h]
    have e : ((BitVec.ofBool true).setWidth 32).toInt = 1 := by decide
    rw [e]; norm_num
  · rw [if_neg h, beq_eq_false_iff_ne.mpr h]
    have e : ((BitVec.ofBool false).setWidth 32).toInt = 0 := by decide
    rw [e]; norm_num

/-- The product with the table at (r, d): the sum over the 768 table rows. -/
theorem picked_apply (H : FVec Ideal S512x768 .bf16) (tab : FVec Ideal S768x2048 .bf16) (hS : S768x2048.ShapeCasts S768x2048)
    (r : Fin 512) (d : Fin 2048) :
    matmul dot_S512x768_S768x2048_S512x2048_1_0_0_1_n_n none H (shapeCast S768x2048 tab hS)
      (constant S512x2048 .f32 0x00000000#32) (ix2 r d) = ∑ k : Fin 768, H (ix2 r k) * tab (ix2 k d) := by
  rw [shapeCast_self]
  exact RowDims.matmul_plain_zero_apply none H tab r d

/-- A sum along the rows' 2048 entries, read at row r. -/
theorem rowsum_apply (v : FVec Ideal S512x2048 .f32) (h : S512x2048.Reduces [1] S512) (hφ : FKind.Formats .f32)
    (hacc : (0x00000000#32 : BitVec 32) = FKind.add.neutral .f32 hφ) (r : Fin 512) :
    multiReduction .add [1] S512 v 0x00000000#32 h hφ hacc (ix1 r) = ∑ d : Fin 2048, v (ix2 r d) := by
  rw [Ideal.multiReduction_add_single]
  refine Finset.sum_congr rfl fun d _ => congrArg v ?_
  funext a
  refine Fin.ext ?_
  match a with
  | ⟨0, _⟩ => rfl
  | ⟨1, _⟩ => rfl

/-- A vector of 512 kept as a column: entry (r, 0) is entry r. -/
theorem column_apply (v : FVec Ideal S512 .f32) (h : S512.ShapeCasts S512x1) (r : Fin 512) :
    shapeCast S512x1 v h (ix2 r 0) = v (ix1 r) :=
  shapeCast_apply v h (ix2 r 0) (ix1 r) (by
    rw [Shape.rowMajor_val_one, Shape.rowMajor_val_two]; show r.val = r.val * 1 + 0; omega)

theorem idx1_eq (i k : S1.Idx) : i = k := funext fun a => match a with | ⟨0, _⟩ => Subsingleton.elim (α := Fin 1) _ _

/-- The 512 column entries as the entries of the [1, 512, 1] array. -/
def colEquiv : S1x512x1.Idx ≃ Fin 512 where
  toFun i := i 1
  invFun r := ix3 0 r 0
  left_inv i := funext fun a => match a with
    | ⟨0, _⟩ => Subsingleton.elim (α := Fin 1) _ _
    | ⟨1, _⟩ => rfl
    | ⟨2, _⟩ => Subsingleton.elim (α := Fin 1) _ _
  right_inv r := rfl

/-- The sum of the whole column, taken out as one number. -/
theorem total_apply (w : FVec Ideal S512x1 .f32) (h1 : S512x1.ShapeCasts S1x512x1) (h2 : S1x512x1.Reduces [1, 2] S1)
    (hφ : FKind.Formats .f32) (hacc : (0x00000000#32 : BitVec 32) = FKind.add.neutral .f32 hφ) (h3 : S1.ShapeCasts S1x1x1)
    (h4 : ∀ a, (![0, 0, 0] : Fin 3 → Nat) a < S1x1x1.size a) :
    extractAt (s := S1x1x1) ![0, 0, 0] (shapeCast S1x1x1 (multiReduction .add [1, 2] S1 (shapeCast S1x512x1 w h1) 0x00000000#32 h2 hφ hacc) h3) h4
      = ∑ r : Fin 512, w (ix2 r 0) := by
  unfold extractAt
  rw [shapeCast_apply _ h3 _ (ix1 0) (by rw [Shape.rowMajor_val_one, Shape.rowMajor_val_three]; rfl)]
  rw [Ideal.multiReduction_add_total _ _ h2 (fun b => match b with | ⟨0, _⟩ => rfl)]
  refine Fintype.sum_equiv colEquiv _ _ fun i => ?_
  rw [shapeCast_addUnit_apply ![512, 1]]
  refine congrArg w ?_
  funext a
  match a with
  | ⟨0, _⟩ => rfl
  | ⟨1, _⟩ => exact Subsingleton.elim (α := Fin 1) _ _

/-- The accumulator block seen without its unit axis: entry (p, q) is the block's entry (0, p, q). -/
theorem acc_apply (acc : FVec Ideal S1x8x128 .f32) (h : S1x8x128.ShapeCasts S8x128) (a : Fin 1) (p : Fin 8) (q : Fin 128) :
    shapeCast S8x128 acc h (ix2 p q) = acc (ix3 a p q) := by
  refine (shapeCast_dropUnit_apply ![8, 128] acc h (ix2 p q)).trans (congrArg acc ?_)
  funext b
  match b with
  | ⟨0, _⟩ => exact Subsingleton.elim (α := Fin 1) _ _
  | ⟨1, _⟩ => rfl
  | ⟨2, _⟩ => rfl

/-- THE UPDATE: every entry of the accumulator block gains the point's partial sum. -/
theorem pay2_apply (x : FVec Ideal S512x2048 .f32) (lab : IVec S512x1 32) (tab : FVec Ideal S768x2048 .bf16)
    (acc : FVec Ideal S1x8x128 .f32) (j : S1x8x128.Idx) :
    k0_pay2 (F := Ideal) x lab tab acc j = acc j + blockSum x lab tab := by
  obtain ⟨a, p, q, rfl⟩ : ∃ (a : Fin 1) (p : Fin 8) (q : Fin 128), j = ix3 a p q := ⟨j 0, j 1, j 2, eq_ix3 j⟩
  unfold k0_pay2
  dsimp only
  rw [shapeCast_addUnit_apply ![8, 128]]
  have hsucc : (fun b : Fin 2 => (ix3 a p q : S1x8x128.Idx) b.succ) = (ix2 p q : S8x128.Idx) :=
    funext fun b => match b with | ⟨0, _⟩ => rfl | ⟨1, _⟩ => rfl
  rw [hsucc]
  refine congrArg₂ (· + ·) (acc_apply acc _ a p q) ?_
  refine (total_apply _ _ _ _ _ _ _).trans ?_
  unfold blockSum
  refine Finset.sum_congr rfl fun r _ => ?_
  show min (Ideal.ofBits .f32 0x5368D4A5#32) (max (Ideal.ofBits .f32 0x2B8CBCCC#32) (shapeCast S512x1 _ _ (ix2 r 0))) = _
  unfold clip hi lo rowSq
  refine congrArg (fun v => min _ (max _ v)) ?_
  refine (column_apply _ _ r).trans ((rowsum_apply _ _ _ _ r).trans (Finset.sum_congr rfl fun d _ => ?_))
  show (x (ix2 r d) - matmul _ none _ _ _ (ix2 r d)) * (x (ix2 r d) - matmul _ none _ _ _ (ix2 r d)) = _
  have hp : ∀ d, matmul dot_S512x768_S768x2048_S512x2048_1_0_0_1_n_n none
      (truncf .bf16 (sitofp (F := Ideal) .f32 (extui 32 (cmpi .eq (iota .tc S512x768 32 [1] iota_S512x768_d1_w32)
        (broadcastTo S512x768 (shapeCast S512x1 lab shapeCasts_S512x1_S512x1) broadcasts_S512x1_S512x768)) natLt_1_32)) bitsLt_bf16_f32)
      (shapeCast S768x2048 tab shapeCasts_S768x2048_S768x2048) (constant S512x2048 .f32 0x00000000#32) (ix2 r d) = picked lab tab r d := by
    intro d
    refine (picked_apply _ tab _ r d).trans ?_
    unfold picked
    exact Finset.sum_congr rfl fun k _ => congrArg (· * tab (ix2 k d)) (hot_apply lab _ _ _ _ _ r k)
  rw [hp d]

end Cert.KernelIdeal.Payload

end
-- ==== Proof.KernelAcc.lean ====
/-
  The accumulator block after each grid point, as a running sum.

  The grid has 32 points; core c' sweeps points 16c', …, 16c' + 15 over ONE accumulator block, zeroing it at the first.
  Every entry of the block after point n therefore holds the sum of the partial sums of the points of n's own sweep up to n.
-/
import proofs.«424945_j3917010174521_2_alg».proof.Proof.KernelPieces
import proofs.«424945_j3917010174521_2_alg».proof.Proof.KernelPayload
import Mathlib.Algebra.BigOperators.Intervals

noncomputable section

open scoped BigOperators
open Idealize.ShloMosaic Idealize.ShloMosaic.TcCoe Idealize.ShloMosaic.ValueIdx Idealize.SL.Sem

namespace Cert.KernelIdeal.Acc

open Cert.KernelIdeal Cert.KernelIdeal.Gen Cert.KernelIdeal.Payload Cert.KernelIdeal.Pieces

variable (m : (ℓ : Loc nD τ sig) → Buf (Elt Ideal) ℓ)

/-- Point t's block of the batch, of the labels and of the padded centre table, at their literal types. -/
abbrev xb (c : Dev nD) (t : Fin cfg0.N) : FVec Ideal S512x2048 .f32 := iblk m c 0 t
abbrev lb (c : Dev nD) (t : Fin cfg0.N) : IVec S512x1 32 := iblk m c 1 t
abbrev tb (c : Dev nD) (t : Fin cfg0.N) : FVec Ideal S768x2048 .bf16 := iblk m c 2 t

/-- Point k's partial sum (nothing past the grid). -/
def bs (c : Dev nD) (k : ℕ) : EReal :=
  if h : k < cfg0.N then blockSum (xb m c ⟨k, h⟩) (lb m c ⟨k, h⟩) (tb m c ⟨k, h⟩) else 0

/-- The zero block the first point of a sweep stores. -/
theorem pay1_apply (j : S1x8x128.Idx) : k0_pay1 (F := Ideal) j = 0 := by
  unfold k0_pay1
  rw [shapeCast_addUnit_apply ![8, 128]]
  exact Ideal.ofBits_zero_f32

/-- At the first point of a sweep the block holds that point's partial sum. -/
theorem point_A (c : Dev nD) (t : Fin cfg0.N) (h0 : t.val % 16 = 0) (j : S1x8x128.Idx) :
    outsAt0 m c t.val t.isLt j = bs m c t.val := by
  rw [outsAt0_A m c t h0]
  refine (congrFun (out_A (F := Ideal) c (grid0.coords t) (ms0_0 t) (hs0_0 t) (ms0_1 t) (hs0_1 t) (ms0_2 t) (hs0_2 t)
    (ms0_3 t) (hs0_3 t) ((hcond0_0 t).mpr h0) (iblk m c 0 t) (iblk m c 1 t) (iblk m c 2 t)) j).trans ?_
  refine (pay2_apply (xb m c t) (lb m c t) (tb m c t) (k0_pay1 (F := Ideal)) j).trans ?_
  rw [pay1_apply, zero_add]
  unfold bs
  rw [dif_pos t.isLt]

/-- At any other point the block gains the point's partial sum over what the point before left. -/
theorem point_B (c : Dev nD) (t : Fin cfg0.N) (h0 : ¬t.val % 16 = 0) (j : S1x8x128.Idx) :
    outsAt0 m c t.val t.isLt j
      = outsAt0 m c (t.val - 1) (Nat.lt_of_le_of_lt (Nat.sub_le _ _) t.isLt) j + bs m c t.val := by
  rw [outsAt0_B m c t h0]
  refine (congrFun (out_B (F := Ideal) c (grid0.coords t) (ms0_0 t) (hs0_0 t) (ms0_1 t) (hs0_1 t) (ms0_2 t) (hs0_2 t)
    (ms0_3 t) (hs0_3 t) (fun h => h0 ((hcond0_0 t).mp h)) (iblk m c 0 t) (iblk m c 1 t) (iblk m c 2 t)
    (outsAt0 m c (t.val - 1) (Nat.lt_of_le_of_lt (Nat.sub_le _ _) t.isLt))) j).trans ?_
  refine (pay2_apply (xb m c t) (lb m c t) (tb m c t) _ j).trans ?_
  unfold bs
  rw [dif_pos t.isLt]

/-- THE RUNNING SUM: after point n every entry of the block is the sum of the partial sums from the start of n's sweep to n. -/
theorem outsAt_apply (c : Dev nD) : ∀ (n : ℕ) (h : n < cfg0.N) (j : S1x8x128.Idx),
    outsAt0 m c n h j = ∑ k ∈ Finset.Icc (16 * (n / 16)) n, bs m c k
  | 0, h, j => by
    rw [point_A m c ⟨0, h⟩ rfl j]
    show bs m c 0 = _
    rw [show 16 * (0 / 16) = 0 from rfl, Finset.Icc_self, Finset.sum_singleton]
  | n + 1, h, j => by
    by_cases h0 : (n + 1) % 16 = 0
    · rw [point_A m c ⟨n + 1, h⟩ h0 j]
      show bs m c (n + 1) = _
      rw [show 16 * ((n + 1) / 16) = n + 1 by omega, Finset.Icc_self, Finset.sum_singleton]
    · rw [point_B m c ⟨n + 1, h⟩ h0 j]
      show outsAt0 m c n _ j + bs m c (n + 1) = _
      rw [outsAt_apply c n _ j, show 16 * ((n + 1) / 16) = 16 * (n / 16) by omega,
        Finset.sum_Icc_succ_top (by omega)]

end Cert.KernelIdeal.Acc

end
-- ==== Proof.Regroup.lean ====
/-
  Three regroupings, none of which mentions a program.

  A sum over the 16384 rows of the batch is the sum over its 32 blocks of 512 consecutive rows of each block's sum;
  a sum over the 32 blocks is the sum over two halves of 16 consecutive blocks each; and the closing host lines —
  keep the entries (c, 0, 0) of a [2, 8, 128] array, lay them out as a vector of two, add them up from zero and
  divide by the batch size — give the quotient of the two kept entries' sum by the batch size.
-/
import proofs.«424945_j3917010174521_2_alg».proof.Proof.Spec
import Idealize.ShloMosaic.Lib.Pipeline.Value
import Idealize.ShloMosaic.Lib.ValueIdx
import Idealize.ShloMosaic.Lib.ValueLayout
import Idealize.ShloMosaic.PureOps.Ideal.Laws
import Mathlib.Logic.Equiv.Fin.Basic
import Mathlib.Algebra.BigOperators.Fin
import Mathlib.Algebra.BigOperators.Group.Finset.Basic

noncomputable section

open scoped BigOperators

namespace Cert.CenterLoss

open Idealize.ShloMosaic Idealize.ShloMosaic.ValueIdx

/-! ## Sums over consecutive blocks -/

/-- A sum over `m * n` positions is the sum over `m` blocks of the sum over each block's `n` positions,
    position `r` of block `t` being `r + n * t`. -/
theorem sum_fin_mul {M : Type*} [AddCommMonoid M] (m n : Nat) (f : Fin (m * n) → M) :
    ∑ r : Fin (m * n), f r = ∑ t : Fin m, ∑ r : Fin n, f (finProdFinEquiv (t, r)) := by
  rw [← finProdFinEquiv.sum_comp, Fintype.sum_prod_type]

/-- The batch summed block of 512 rows by block: row `r` of block `t` is row `512 * t + r` of the batch. -/
theorem sum_blocks {M : Type*} [AddCommMonoid M] (f : Fin 16384 → M) :
    ∑ r : Fin 16384, f r
      = ∑ t : Fin 32, ∑ r : Fin 512, f ⟨512 * t.val + r.val, by have := t.isLt; have := r.isLt; omega⟩ := by
  refine (sum_fin_mul 32 512 f).trans ?_
  refine Finset.sum_congr rfl fun t _ => Finset.sum_congr rfl fun r _ => congrArg f (Fin.ext ?_)
  show r.val + 512 * t.val = 512 * t.val + r.val
  omega

/-- The 32 blocks summed half by half: block `i` of half `c` is block `16 * c + i`. -/
theorem sum_cores {M : Type*} [AddCommMonoid M] (g : Fin 32 → M) :
    ∑ t : Fin 32, g t
      = ∑ c : Fin 2, ∑ i : Fin 16, g ⟨16 * c.val + i.val, by have := c.isLt; have := i.isLt; omega⟩ := by
  refine (sum_fin_mul 2 16 g).trans ?_
  refine Finset.sum_congr rfl fun c _ => Finset.sum_congr rfl fun i _ => congrArg g (Fin.ext ?_)
  show i.val + 16 * c.val = 16 * c.val + i.val
  omega

/-! ## The closing host lines -/

/-- The accumulator array: two halves, each an 8 by 128 tile. -/
abbrev T3 : Shape := ⟨3, ![2, 8, 128]⟩
/-- Its corner entries: one per half. -/
abbrev T3s : Shape := ⟨3, ![2, 1, 1]⟩
/-- The two corner entries as a vector. -/
abbrev T1 : Shape := ⟨1, ![2]⟩

/-- A rank-1 index set is its one coordinate range. -/
def idx1Equiv {n : Nat} : (⟨1, ![n]⟩ : Shape).Idx ≃ Fin n where
  toFun j := j 0
  invFun := ix1
  left_inv j := (eq_ix1 j).symm
  right_inv _ := rfl

/-- Entry `c` of the vector of corners is the array's entry `(c, 0, 0)`: the slice at offset zero keeps the
    coordinates, and the reshape of [2, 1, 1] to [2] keeps the row-major position `c`. -/
theorem corner_apply {α : Type} (A : T3.Idx → α) (hsl : T3.Slices ![0, 0, 0] T3s) (hsc : T3s.ShapeCasts T1) (c : Fin 2) :
    shapeCast T1 (extractStridedSlice T3s ![0, 0, 0] A hsl) hsc (ix1 c) = A (ix3 c 0 0) := by
  refine (shapeCast_apply _ hsc (ix1 c) (ix3 c 0 0) ?_).trans ?_
  · rw [Shape.rowMajor_val_three, Shape.rowMajor_val_one]
    show (c.val * 1 + 0) * 1 + 0 = c.val
    omega
  · refine extractStridedSlice_apply _ A hsl (ix3 c 0 0) (ix3 c 0 0) fun a => ?_
    match a with
    | ⟨0, _⟩ => exact (Nat.zero_add _).symm
    | ⟨1, _⟩ => rfl
    | ⟨2, _⟩ => rfl

/-- The closing host lines as one function of the accumulator array: the sum of its two corner entries, from the
    initial value zero, divided by the batch size. -/
theorem tail_apply (A : FVec Ideal T3 .f32) (hsl : T3.Slices ![0, 0, 0] T3s) (hsc : T3s.ShapeCasts T1)
    (hred : T1.ReducesTo [0] S0) (h0 : 0 < S0.numel) :
    Host.divf (Host.reduceAdd (shapeCast T1 (extractStridedSlice T3s ![0, 0, 0] A hsl) hsc)
        (constant (F := Ideal) S0 .f32 0x00000000#32) hred h0) (constant (F := Ideal) S0 .f32 0x46800000#32)
      = fun _ => Ideal.div (A (ix3 0 0 0) + A (ix3 1 0 0)) cnt := by
  funext i
  show Ideal.div (Ideal.hostReduceAdd hred (shapeCast T1 (extractStridedSlice T3s ![0, 0, 0] A hsl) hsc)
      (Ideal.ofBits .f32 0x00000000#32) i) (Ideal.ofBits .f32 0x46800000#32) = _
  rw [Ideal.hostReduceAdd_total hred (fun b => b.elim0), Ideal.ofBits_zero_f32, zero_add]
  unfold cnt
  refine congrArg (fun t => Ideal.div t (Ideal.ofBits .f32 0x46800000#32)) ?_
  rw [← Equiv.sum_comp (idx1Equiv (n := 2)).symm, Fin.sum_univ_two]
  exact congrArg₂ (· + ·) (corner_apply A hsl hsc 0) (corner_apply A hsl hsc 1)

end Cert.CenterLoss

end
-- ==== Proof.KernelValue.lean ====
/-
  The kernel's result, read off its run.

  Core c' flushes its accumulator block once, after the last point of its sweep, into block c' of the [2, 8, 128] result
  array; so every entry (c', ·, ·) of that array ends at core c''s sweep sum. The host lines after the kernel take the
  two entries (0, 0, 0) and (1, 0, 0), add them and divide by the batch size.
-/
import proofs.«424945_j3917010174521_2_alg».proof.Proof.KernelAcc
import proofs.«424945_j3917010174521_2_alg».proof.Proof.Regroup
import Idealize.ShloMosaic.Lib.StableHlo.Run

noncomputable section

open scoped BigOperators
open Idealize.ShloMosaic Idealize.ShloMosaic.TcCoe Idealize.ShloMosaic.ValueIdx Idealize.SL.Sem
open Idealize.ShloMosaic.Pipeline (Dat)

namespace Cert.KernelIdeal.Final

open Cert.KernelIdeal Cert.KernelIdeal.Gen Cert.KernelIdeal.Acc Cert.CenterLoss

variable (m : (ℓ : Loc nD τ sig) → Buf (Elt Ideal) ℓ) (ρ : Dev nD → PrngReg)

/-- Core q's sweep sum: the partial sums of its sixteen points. -/
def sweep (c : Dev nD) (q : ℕ) : EReal := ∑ k ∈ Finset.Icc (16 * q) (16 * q + 15), bs m c k

/-- The result array: entry (q, ·, ·) is core q's sweep sum. -/
def Gfun (c : Dev nD) : FVec Ideal S2x8x128 .f32 := fun i => sweep m c (i 0).val
abbrev G (c : Dev nD) : Buf (Elt Ideal) ((c : Thread nD τ).loc main_v3) := Gfun m c

/-- The accumulator window's block index at point t: (t / 16, 0, 0). -/
theorem idx3 : ∀ t : Fin cfg0.N, win0_3.index t (0 : Fin 3) = t.val / 16 ∧ win0_3.index t (1 : Fin 3) = 0
    ∧ win0_3.index t (2 : Fin 3) = 0 :=
  (by decide +kernel : ∀ t : Fin grid0.N, _)

/-- What a flushing point writes back is its block of the result array. -/
theorem flushed_eq (c : Dev nD) (t : Fin cfg0.N) (hf : (cfg0.win 3).flush t = true) :
    (dats m 0 c).flushed 3 t = ((cfg0.win 3).blk t).view.read (Elt Ideal) (G m c) := by
  have h15 := (flush0_3 t).mp hf
  obtain ⟨e0, e1, e2⟩ := idx3 t
  show (cfg0.win 3).cut (grid0.coords t) ((dats m 0 c).after 3 t) = _
  rw [after0_3]
  funext j
  show outsAt0 m c t.val t.isLt j = Gfun m c (((cfg0.win 3).blk t).view.emb j)
  rw [outsAt_apply]
  unfold Gfun sweep
  have hq : ((((cfg0.win 3).blk t).view.emb j) 0).val = t.val / 16 := by
    show win0_3.index t (0 : Fin 3) * 1 + 1 * (j 0).val = _
    have : (j 0).val < 1 := (j 0).isLt
    omega
  rw [hq, show 16 * (t.val / 16) + 15 = t.val by omega]

/-- An entry of the result array is in point t's block iff each coordinate is in the block's range. -/
theorem mem_blk3 (t : Fin cfg0.N) (i : S2x8x128.Idx) :
    i ∈ ((cfg0.win 3).blk t).view.set ↔ ∀ a : Fin 3, win0_3.index t a * S1x8x128.size a ≤ (i a).val
      ∧ (i a).val < win0_3.index t a * S1x8x128.size a + S1x8x128.size a := by
  show i ∈ ((View.whole main_v3).slice (win0_3.rect t)).set ↔ _
  rw [View.set_slice_whole, Rect.mem_set_unit]
  exact Iff.rfl

/-- Every entry of the result array is in the block some sweep's last point flushes. -/
theorem cover (i : S2x8x128.Idx) :
    ∃ t : Fin cfg0.N, (cfg0.win 3).flush t = true ∧ i ∈ ((cfg0.win 3).blk t).view.set := by
  have hi0 : (i 0).val < 2 := (i 0).isLt
  have hi1 : (i 1).val < 8 := (i 1).isLt
  have hi2 : (i 2).val < 128 := (i 2).isLt
  have hN : cfg0.N = 32 := N_0
  have hlt : 16 * (i 0).val + 15 < cfg0.N := by rw [hN]; omega
  refine ⟨⟨16 * (i 0).val + 15, hlt⟩, (flush0_3 _).mpr (by show (16 * (i 0).val + 15) % 16 = 15; omega), ?_⟩
  rw [mem_blk3]
  obtain ⟨e0, e1, e2⟩ := idx3 ⟨16 * (i 0).val + 15, hlt⟩
  have e0' : win0_3.index ⟨16 * (i 0).val + 15, hlt⟩ (0 : Fin 3) = (i 0).val := by
    rw [e0]; show (16 * (i 0).val + 15) / 16 = _; omega
  intro a
  match a with
  | ⟨0, _⟩ =>
    show win0_3.index _ (0 : Fin 3) * 1 ≤ (i 0).val ∧ (i 0).val < win0_3.index _ (0 : Fin 3) * 1 + 1
    rw [e0']; omega
  | ⟨1, _⟩ =>
    show win0_3.index _ (1 : Fin 3) * 8 ≤ (i 1).val ∧ (i 1).val < win0_3.index _ (1 : Fin 3) * 8 + 8
    rw [e1]; omega
  | ⟨2, _⟩ =>
    show win0_3.index _ (2 : Fin 3) * 128 ≤ (i 2).val ∧ (i 2).val < win0_3.index _ (2 : Fin 3) * 128 + 128
    rw [e2]; omega

/-- So the result array ends holding the sweep sums. -/
theorem final (c : Dev nD) : (dats m 0 c).arrAt 3 cfg0.N = G m c :=
  (dats m 0 c).arrAt_eq_of_cover 3 (G m c) (flushed_eq m c) cover

/-- The host lines after the kernel leave the two sweep sums' sum over the batch size. -/
theorem tail_eq (c : Dev nD) :
    Pipeline.afterTail₀ cfgs (dats m) 0 (V0 m) [hostOps1] c main_v7 = fun _ => Ideal.div (sweep m c 0 + sweep m c 1) cnt := by
  unfold Pipeline.afterTail₀
  show StableHlo.after hostOps1 _ (Proc.devRef .tc main_v7) = _
  after_results
  have hw : Pipeline.withArrays (cfgs 0).spec c (V0 m c) (fun w => (dats m 0 c).arrAt w (cfgs 0).N) (Proc.tc.devRef main_v3) = G m c :=
    (Pipeline.withArrays_arr spec0 launch0.win.arr_inj c (V0 m c) (fun w => (dats m 0 c).arrAt w (cfgs 0).N) 3).trans (final m c)
  rw [hw]
  exact tail_apply (Gfun m c) slices_S2x8x128_S2x1x1_0_0_0 shapeCasts_S2x1x1_S2 reducesTo_S2_S_d0 h_S_

/-- THE RUN, READ: the result at the two sweep sums' sum over the batch size, the arguments unchanged. -/
theorem run : θ_run defs (onTc (τ := τ) (main (F := Ideal))) ⟨m, fun _ => 0, ρ⟩ fun r => ∀ c : Dev nD,
      r.2.mem ((c.tc : Thread nD τ).loc main_v7) = (fun _ => Ideal.div (sweep m c 0 + sweep m c 1) cnt)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v7 (Pipeline.mem_restRefs_of main_v7 (by decide) (by decide))).trans (tail_eq m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.Final

end
-- ==== Proof.KernelBlocks.lean ====
/-
  What each input window's block holds at a grid point, read at one index, over the extended reals.

  The grid has 32 points. At point t the batch window holds rows 512 t … 512 t + 511 of the batch, the label window
  the same rows of the labels kept as a [16384, 1] column (the reshape keeps the row-major position, so entry (512 t + r, 0)
  is label 512 t + r), and the centre window the whole [768, 2048] array at every point: the 751 centre rows, then 17 rows
  of the padding value, which is the integer zero converted, that is 0; the change of format is the identity here.
  A block's coordinate in its array is always block index × block extent + the coordinate inside the block, and the
  block indices are decided once over the grid.
-/
import proofs.«424945_j3917010174521_2_alg».proof.Proof.Gen.KernelIdeal.Frame
import Idealize.ShloMosaic.Lib.Pipeline.Value
import Idealize.ShloMosaic.Lib.StableHlo.Run
import Idealize.ShloMosaic.Lib.ValueIdx
import Idealize.ShloMosaic.Lib.KernelVsHost
import Idealize.ShloMosaic.PureOps.Ideal.Laws

noncomputable section

namespace Cert.KernelIdeal.Blocks

open Cert.KernelIdeal Cert.KernelIdeal.Gen Idealize.ShloMosaic Idealize.ShloMosaic.ValueIdx Idealize.ShloMosaic.TcCoe Idealize.SL.Sem

variable (m : (ℓ : Loc nD τ sig) → Buf (Elt Ideal) ℓ)

/-! ## The arrays the region finds -/

/-- What the region finds in the labels' [16384, 1] array: the label vector, reshaped. -/
theorem V_v2 (c : Dev nD) : (V m c main_v2 : IVec S16384x1 32)
    = shapeCast S16384x1 (m ((c : Thread nD τ).loc main_arg1) : IVec S16384 32) Facts₀.shapeCasts_S16384_S16384x1 := by
  dsimp only [Gen.V, Gen.V0]
  simp only [Gen.hostOps0, Gen.hostOps0_1, Gen.hostOps0_2, List.flatten_cons, List.flatten_nil, List.append_nil, List.cons_append, List.nil_append]
  after_results
  rfl

/-- What the region finds in the centres' [768, 2048] array: the centres, 17 rows of the converted integer zero below them,
    the format then changed. -/
theorem V_v1 (c : Dev nD) : (V m c main_v1 : FVec Ideal S768x2048 .bf16)
    = truncf .bf16 (pad S768x2048 ![0, 0] ![17, 0] ![0, 0] (m ((c : Thread nD τ).loc main_arg2) : FVec Ideal S751x2048 .f32)
        (sitofp (F := Ideal) .f32 (constantI S_ 32 0#32) : FVec Ideal S_ .f32) Facts₀.pads_S751x2048_S768x2048_0170_000 Facts₀.h_S_) Facts₀.bitsLt_bf16_f32 := by
  dsimp only [Gen.V, Gen.V0]
  simp only [Gen.hostOps0, Gen.hostOps0_1, Gen.hostOps0_2, List.flatten_cons, List.flatten_nil, List.append_nil, List.cons_append, List.nil_append]
  after_results
  rfl

/-! ## Rows and block indices -/

/-- The batch row that row r of point t's block is: 512 t + r. -/
def grow (t : Fin cfg0.N) (r : Fin 512) : Fin 16384 :=
  ⟨512 * t.val + r.val, by have := t.isLt; have : cfg0.N = 32 := N_0; have := r.isLt; omega⟩

/-- Window 0's block index at point t is (t, 0). -/
theorem idx0 : ∀ t : Fin cfg0.N, win0_0.index t 0 = t.val ∧ win0_0.index t 1 = 0 :=
  (by decide +kernel : ∀ t : Fin grid0.N, win0_0.index t 0 = t.val ∧ win0_0.index t 1 = 0)

/-- Window 1's block index at point t is (t, 0). -/
theorem idx1 : ∀ t : Fin cfg0.N, win0_1.index t 0 = t.val ∧ win0_1.index t 1 = 0 :=
  (by decide +kernel : ∀ t : Fin grid0.N, win0_1.index t 0 = t.val ∧ win0_1.index t 1 = 0)

/-- Window 2's block index at every point is (0, 0). -/
theorem idx2 : ∀ t : Fin cfg0.N, win0_2.index t 0 = 0 ∧ win0_2.index t 1 = 0 :=
  (by decide +kernel : ∀ t : Fin grid0.N, win0_2.index t 0 = 0 ∧ win0_2.index t 1 = 0)

/-! ## The blocks at an index -/

/-- Row r, column d of the batch block at point t is the batch at row 512 t + r, column d. -/
theorem iblk0_apply (c : Dev nD) (t : Fin cfg0.N) (r : Fin 512) (d : Fin 2048) :
    (iblk m c 0 t : FVec Ideal S512x2048 .f32) (ix2 r d) = m ((c : Thread nD τ).loc main_arg0) (ix2 (grow t r) d) := by
  have hi := idx0 t
  unfold iblk
  rw [View.read_apply]
  show V m c main_arg0 _ = _
  rw [V_main_arg0]
  congr 1
  funext a
  apply Fin.ext
  match a with
  | ⟨0, _⟩ => show win0_0.index t 0 * 512 + 1 * r.val = 512 * t.val + r.val; rw [hi.1]; omega
  | ⟨1, _⟩ => show win0_0.index t 1 * 2048 + 1 * d.val = d.val; rw [hi.2]; omega

/-- Row r of the label block at point t is label 512 t + r. -/
theorem iblk1_apply (c : Dev nD) (t : Fin cfg0.N) (r : Fin 512) :
    (iblk m c 1 t : IVec S512x1 32) (ix2 r 0) = m ((c : Thread nD τ).loc main_arg1) (ix1 (grow t r)) := by
  have hi := idx1 t
  unfold iblk
  rw [View.read_apply]
  show (V m c main_v2 : IVec S16384x1 32) _ = _
  rw [V_v2]
  refine shapeCast_apply _ _ _ (ix1 (grow t r)) ?_
  rw [Shape.rowMajor_val_one, Shape.rowMajor_val_two]
  show 512 * t.val + r.val = (win0_1.index t 0 * 512 + 1 * r.val) * 1 + (win0_1.index t 1 * 1 + 1 * 0)
  rw [hi.1, hi.2]; omega

/-- Row k, column d of the centre block, at every point: the centre entry for k < 751, and 0 on the 17 padding rows. -/
theorem iblk2_apply (c : Dev nD) (t : Fin cfg0.N) (k : Fin 768) (d : Fin 2048) :
    (iblk m c 2 t : FVec Ideal S768x2048 .bf16) (ix2 k d)
      = if h : k.val < 751 then (m ((c : Thread nD τ).loc main_arg2) : FVec Ideal S751x2048 .f32) (ix2 ⟨k.val, h⟩ d) else (0 : EReal) := by
  have hi := idx2 t
  unfold iblk
  rw [View.read_apply]
  show (V m c main_v1 : FVec Ideal S768x2048 .bf16) _ = _
  rw [V_v1]
  show pad S768x2048 ![0, 0] ![17, 0] ![0, 0] (m ((c : Thread nD τ).loc main_arg2) : FVec Ideal S751x2048 .f32)
      (sitofp (F := Ideal) .f32 (constantI S_ 32 0#32) : FVec Ideal S_ .f32) Facts₀.pads_S751x2048_S768x2048_0170_000 Facts₀.h_S_
      (((cfg0.win 2).blk t).view.emb (ix2 k d)) = _
  by_cases h : k.val < 751
  · rw [dif_pos h]
    refine pad_apply_of_inside _ _ _ _ _ _ _ _ (ix2 (⟨k.val, h⟩ : Fin 751) d) (fun a => ?_)
    match a with
    | ⟨0, _⟩ => show win0_2.index t 0 * 768 + 1 * k.val = 0 + k.val * (0 + 1); rw [hi.1]; omega
    | ⟨1, _⟩ => show win0_2.index t 1 * 2048 + 1 * d.val = 0 + d.val * (0 + 1); rw [hi.2]; omega
  · rw [dif_neg h]
    refine (pad_apply_of_not_inside _ _ _ _ _ _ _ _ (0 : Fin 2) ?_).trans ?_
    · show ¬(0 ≤ win0_2.index t 0 * 768 + 1 * k.val ∧ (win0_2.index t 0 * 768 + 1 * k.val - 0) % (0 + 1) = 0
          ∧ (win0_2.index t 0 * 768 + 1 * k.val - 0) / (0 + 1) < 751)
      rw [hi.1]; omega
    · show (((0#32 : BitVec 32).toInt : ℝ) : EReal) = 0
      simp

end Cert.KernelIdeal.Blocks

end
-- ==== Proof.KernelRows.lean ====
/-
  A grid point's partial sum in the words of the specification.

  At point t row r of the batch block is batch row 512 t + r, and its label word l is that row's label. The 0/1 row for l
  has its single one at column l (a column number below 768 equals the word exactly when it is the word's value), so the
  product of the 0/1 matrix with the padded table picks, in row r, table row l; on the domain l is below 751, so that row
  is the centre of the row's class and not a padding row. Hence row r's sum of squared differences is the squared distance
  of batch row 512 t + r to its class centre, and the point's partial sum is the sum of the 512 clipped squared distances.
-/
import proofs.«424945_j3917010174521_2_alg».proof.Proof.KernelAcc
import proofs.«424945_j3917010174521_2_alg».proof.Proof.KernelBlocks
import proofs.«424945_j3917010174521_2_alg».proof.Proof.Spec
import Mathlib.Algebra.BigOperators.Group.Finset.Basic

noncomputable section

open scoped BigOperators

namespace Cert.KernelIdeal.Rows

open Cert.KernelIdeal Cert.KernelIdeal.Gen Cert.KernelIdeal.Payload Cert.KernelIdeal.Acc Cert.KernelIdeal.Blocks Cert.CenterLoss
open Idealize.ShloMosaic Idealize.ShloMosaic.ValueIdx Idealize.ShloMosaic.TcCoe Idealize.SL.Sem

variable (m : (ℓ : Loc nD τ sig) → Buf (Elt Ideal) ℓ)

/-- The 0/1 row of a word has a one at the column that is the word's value. -/
theorem hot_self (l : BitVec 32) (hl : l.toNat < 768) : hot l ⟨l.toNat, hl⟩ = 1 := by
  unfold hot
  rw [if_pos]
  apply BitVec.eq_of_toNat_eq
  rw [BitVec.toNat_ofNat]
  exact Nat.mod_eq_of_lt l.isLt

/-- And a zero at every other column. -/
theorem hot_ne (l : BitVec 32) (k : Fin 768) (hk : k.val ≠ l.toNat) : hot l k = 0 := by
  unfold hot
  rw [if_neg]
  intro e
  apply hk
  have e' := congrArg BitVec.toNat e
  rw [BitVec.toNat_ofNat, Nat.mod_eq_of_lt (by have := k.isLt; omega)] at e'
  exact e'

/-- The product of the 0/1 row of a word below 768 with a table picks the table row the word names. -/
theorem picked_word (lab : IVec S512x1 32) (tab : FVec Ideal S768x2048 .bf16) (r : Fin 512) (d : Fin 2048)
    (hl : (lab (ix2 r 0)).toNat < 768) : picked lab tab r d = tab (ix2 ⟨(lab (ix2 r 0)).toNat, hl⟩ d) := by
  unfold picked
  rw [Finset.sum_eq_single (⟨(lab (ix2 r 0)).toNat, hl⟩ : Fin 768)]
  · rw [hot_self, one_mul]
  · intro k _ hne
    rw [hot_ne _ k (fun e => hne (Fin.ext e)), zero_mul]
  · intro hn
    exact absurd (Finset.mem_univ _) hn

/-- On the domain, row r of the product at point t is the centre of the class of batch row 512 t + r. -/
theorem picked_eq (c : Dev nD) (t : Fin cfg0.N)
    (h : InDomain (m ((c : Thread nD τ).loc main_arg0)) (m ((c : Thread nD τ).loc main_arg1)) (m ((c : Thread nD τ).loc main_arg2)))
    (r : Fin 512) (d : Fin 2048) :
    picked (lb m c t) (tb m c t) r d = m ((c : Thread nD τ).loc main_arg2) (ix2 (classOf h (grow t r)) d) := by
  have hlab : lb m c t (ix2 r 0) = (m ((c : Thread nD τ).loc main_arg1) : SL.Idx → BitVec 32) (ix1 (grow t r)) := iblk1_apply m c t r
  have hlt : (lb m c t (ix2 r 0)).toNat < 751 := by rw [hlab]; exact h.toNat_lt (ix1 (grow t r))
  rw [picked_word (lb m c t) (tb m c t) r d (by omega)]
  refine (iblk2_apply m c t _ d).trans ?_
  rw [dif_pos hlt]
  have hk : (⟨(lb m c t (ix2 r 0)).toNat, hlt⟩ : Fin 751) = classOf h (grow t r) :=
    Fin.ext (show (lb m c t (ix2 r 0)).toNat = ((m ((c : Thread nD τ).loc main_arg1) : SL.Idx → BitVec 32) (ix1 (grow t r))).toNat from
      congrArg BitVec.toNat hlab)
  rw [hk]

/-- THE POINT'S PARTIAL SUM: the 512 clipped squared distances of the point's batch rows to their class centres. -/
theorem blockSum_eq (c : Dev nD) (t : Fin cfg0.N)
    (h : InDomain (m ((c : Thread nD τ).loc main_arg0)) (m ((c : Thread nD τ).loc main_arg1)) (m ((c : Thread nD τ).loc main_arg2))) :
    blockSum (xb m c t) (lb m c t) (tb m c t)
      = ∑ r : Fin 512, clip (sqDist (m ((c : Thread nD τ).loc main_arg0)) (m ((c : Thread nD τ).loc main_arg2)) (grow t r) (classOf h (grow t r))) := by
  unfold blockSum
  refine Finset.sum_congr rfl fun r _ => congrArg clip ?_
  unfold rowSq sqDist
  refine Finset.sum_congr rfl fun d _ => ?_
  rw [picked_eq m c t h r d]
  have hx : xb m c t (ix2 r d) = m ((c : Thread nD τ).loc main_arg0) (ix2 (grow t r) d) := iblk0_apply m c t r d
  rw [hx]

end Cert.KernelIdeal.Rows

end
-- ==== Proof.KernelTotal.lean ====
/-
  The two sweep sums together are the specification's total.

  The 32 grid points split the batch into 32 blocks of 512 consecutive rows; point t's partial sum is the sum of the
  clipped squared distances of block t's rows, so the two cores' sweep sums add up to the sum over the whole batch.
-/
import proofs.«424945_j3917010174521_2_alg».proof.Proof.KernelValue
import proofs.«424945_j3917010174521_2_alg».proof.Proof.KernelRows

noncomputable section

open scoped BigOperators
open Idealize.ShloMosaic Idealize.ShloMosaic.TcCoe Idealize.ShloMosaic.ValueIdx Idealize.SL.Sem

namespace Cert.KernelIdeal.Final

open Cert.KernelIdeal Cert.KernelIdeal.Gen Cert.KernelIdeal.Acc Cert.KernelIdeal.Blocks Cert.KernelIdeal.Rows Cert.CenterLoss

variable (m : (ℓ : Loc nD τ sig) → Buf (Elt Ideal) ℓ)

/-- The two sweeps cover the 32 points once each. -/
theorem sweeps_eq_range (c : Dev nD) : sweep m c 0 + sweep m c 1 = ∑ k ∈ Finset.range 32, bs m c k := by
  unfold sweep
  have hU : Finset.range 32 = Finset.Icc (16 * 0) (16 * 0 + 15) ∪ Finset.Icc (16 * 1) (16 * 1 + 15) := by
    ext k
    simp only [Finset.mem_range, Finset.mem_union, Finset.mem_Icc]
    omega
  have hD : Disjoint (Finset.Icc (16 * 0) (16 * 0 + 15)) (Finset.Icc (16 * 1) (16 * 1 + 15)) := by
    rw [Finset.disjoint_left]
    intro k
    simp only [Finset.mem_Icc]
    omega
  rw [hU, Finset.sum_union hD]

/-- THE TOTAL: on the domain the two sweep sums add up to the batch's sum of clipped squared distances. -/
theorem sweeps_eq_total (c : Dev nD)
    (h : InDomain (m ((c : Thread nD τ).loc main_arg0)) (m ((c : Thread nD τ).loc main_arg1)) (m ((c : Thread nD τ).loc main_arg2))) :
    sweep m c 0 + sweep m c 1
      = total (m ((c : Thread nD τ).loc main_arg0)) (m ((c : Thread nD τ).loc main_arg2)) (classOf h) := by
  have hN : cfg0.N = 32 := N_0
  rw [sweeps_eq_range, Finset.sum_range]
  unfold total
  rw [sum_blocks]
  refine Finset.sum_congr rfl fun t _ => ?_
  have ht : t.val < cfg0.N := by rw [hN]; exact t.isLt
  unfold bs
  rw [dif_pos ht, blockSum_eq m c ⟨t.val, ht⟩ h]
  rfl

end Cert.KernelIdeal.Final

end
-- ==== Proof.lean ====
/-
  The centre-loss kernel against its reference, over the extended reals.

  Both programs compute, for a batch x of 16384 rows of 2048 features, one class label per row and 751 class centres,
  the mean over the batch of the clipped squared distance of each row to its class centre:
  (Σ_r clip (Σ_d (x[r,d] − cen[label r, d])²)) / 16384, the clip bounds and the batch size the same words on both sides.

  The kernel picks each row's centre by multiplying a 0/1 matrix (one per row, in the column numbered by the label)
  with the centre table padded by zero rows to 768, sums squared differences row by row, clips, and accumulates block
  sums over a [2, 16] grid, one accumulator block per core; the host adds the two cores' sums and divides.
  The reference gathers the centres by label and expands the square, ‖x‖² + ‖c‖² − 2⟨x, c⟩.
  On real-valued inputs the expansion is the sum of squared differences, and with every label a class index
  (0 ≤ label < 751, the added precondition) the 0/1 product and the gather read the same centre row; outside that range
  they do not (the product reads a zero row or nothing, the gather wraps a negative label and clamps), which is why the
  range is assumed. The order and grouping of the sums is immaterial over the extended reals.

  The three frames are the generated ones (the reference's is its generated run with the result dropped); the ideal
  pass rewrote nothing, so the kernel's idealization is its own text.
-/
import proofs.«424945_j3917010174521_2_alg».proof.Defs
import proofs.«424945_j3917010174521_2_alg».proof.Proof.Gen.Kernel
import proofs.«424945_j3917010174521_2_alg».proof.Proof.Gen.Kernel.Skeleton
import proofs.«424945_j3917010174521_2_alg».proof.Proof.Gen.Kernel.Launch
import proofs.«424945_j3917010174521_2_alg».proof.Proof.Gen.Kernel.Points
import proofs.«424945_j3917010174521_2_alg».proof.Proof.Gen.Kernel.Frame
import proofs.«424945_j3917010174521_2_alg».proof.Proof.Gen.KernelIdeal
import proofs.«424945_j3917010174521_2_alg».proof.Proof.Gen.KernelIdeal.Skeleton
import proofs.«424945_j3917010174521_2_alg».proof.Proof.Gen.KernelIdeal.Launch
import proofs.«424945_j3917010174521_2_alg».proof.Proof.Gen.KernelIdeal.Points
import proofs.«424945_j3917010174521_2_alg».proof.Proof.Gen.KernelIdeal.Frame
import proofs.«424945_j3917010174521_2_alg».proof.Proof.Gen.ReferenceIdeal
import proofs.«424945_j3917010174521_2_alg».proof.Proof.Gen.ReferenceIdeal.Run
import proofs.«424945_j3917010174521_2_alg».proof.Proof.Gen.ReferenceIdeal.Read
import proofs.«424945_j3917010174521_2_alg».proof.Proof.Gen.Pre_finite_inputs
import proofs.«424945_j3917010174521_2_alg».proof.Proof.PreDomain
import proofs.«424945_j3917010174521_2_alg».proof.Proof.RefValue
import proofs.«424945_j3917010174521_2_alg».proof.Proof.KernelTotal
import Idealize.ShloMosaic.Adequacy
import Idealize.ShloMosaic.Init

noncomputable section

namespace Cert.Proof

open Idealize.ShloMosaic Idealize.SL.Sem Cert.CenterLoss

/-- The reference terminates with its arguments unchanged: its run, the result dropped. -/
theorem frame_reference : Cert.frame_ReferenceIdeal (hReferenceIdeal := Cert.ReferenceIdeal.Gen.facts)
    (hPre_finite_inputs := Cert.Pre_finite_inputs.Gen.facts) := fun m ρ _ =>
  (θ_run Cert.ReferenceIdeal.defs _ _).mono (fun _ h c => (h c).2) (Cert.ReferenceIdeal.Value.run (F := Ideal) m ρ)

/-- Both idealized programs end at the mean clipped squared distance of the arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  have hdom : ∀ c : Dev Cert.KernelIdeal.nD,
      InDomain (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2)) :=
    fun c => @inDomain_of_pre Cert.Pre_finite_inputs.Gen.facts _ _ _ (hpre c)
  refine ⟨fun c => meanLoss (m ((c.tc : Thread Cert.KernelIdeal.nD Cert.KernelIdeal.τ).loc Cert.KernelIdeal.main_arg0))
      (m ((c.tc : Thread Cert.KernelIdeal.nD Cert.KernelIdeal.τ).loc Cert.KernelIdeal.main_arg2)) (classOf (hdom c)), ?_, ?_⟩
  · -- the kernel: the two cores' sweep sums add up to the batch total
    refine (θ_run Cert.KernelIdeal.defs _ _).mono (fun _ h c => ⟨(h c).1.trans ?_, (h c).2⟩)
      (Cert.KernelIdeal.Final.run m ρ)
    unfold meanLoss
    rw [Cert.KernelIdeal.Final.sweeps_eq_total m c (hdom c)]
    rfl
  · -- the reference: its run's term is the same mean of the arguments, which agree
    refine (θ_run Cert.ReferenceIdeal.defs _ _).mono (fun _ h c => ⟨(h c).1.trans ?_, (h c).2⟩)
      (Cert.ReferenceIdeal.Value.run (F := Ideal) m' ρ')
    rw [(hagree c).1, (hagree c).2.1, (hagree c).2.2, Cert.ReferenceIdeal.Read.val_main_v19_eq]
    exact Cert.ReferenceIdeal.RefValue.ref_value _ _ _ (hdom c)

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ, fun m ρ _ => Cert.KernelIdeal.Gen.frame m ρ, frame_reference, trivial, algebraic⟩

end Cert.Proof

end
